-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S128x1024 : Shape := ⟨2, ![128, 1024]⟩
abbrev S128 : Shape := ⟨1, ![128]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x4096x1024 .f32) (main_arg1 : IVec S8x4096 32) (main_arg2 : FVec F S128x1024 .f32) (main_arg3 : FVec F S128 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8x4096x1024 : Shape := ⟨3, ![8, 4096, 1024]⟩
abbrev S8x4096 : Shape := ⟨2, ![8, 4096]⟩
abbrev S128x1024 : Shape := ⟨2, ![128, 1024]⟩
abbrev S128 : Shape := ⟨1, ![128]⟩
abbrev S_ : Shape := ⟨0, ![]⟩
abbrev S8 : Shape := ⟨1, ![8]⟩
abbrev S4094 : Shape := ⟨1, ![4094]⟩
abbrev S1x4094 : Shape := ⟨2, ![1, 4094]⟩
abbrev S8x1 : Shape := ⟨2, ![8, 1]⟩
abbrev S8x4094 : Shape := ⟨2, ![8, 4094]⟩
abbrev S8x4094x1 : Shape := ⟨3, ![8, 4094, 1]⟩
abbrev S1024x128 : Shape := ⟨2, ![1024, 128]⟩
abbrev S8x4094x128 : Shape := ⟨3, ![8, 4094, 128]⟩
abbrev S8x4094x1024 : Shape := ⟨3, ![8, 4094, 1024]⟩
abbrev S1x4096x256 : Shape := ⟨3, ![1, 4096, 256]⟩
abbrev S1x4094x1 : Shape := ⟨3, ![1, 4094, 1]⟩
abbrev S1x4094x128 : Shape := ⟨3, ![1, 4094, 128]⟩
abbrev S1x4094x256 : Shape := ⟨3, ![1, 4094, 256]⟩
abbrev S4094x256 : Shape := ⟨2, ![4094, 256]⟩
abbrev S4094x1 : Shape := ⟨2, ![4094, 1]⟩
abbrev S256x128 : Shape := ⟨2, ![256, 128]⟩
abbrev S4094x128 : Shape := ⟨2, ![4094, 128]⟩
abbrev S1x128 : Shape := ⟨2, ![1, 128]⟩

abbrev nBuf : Space → Nat
  | .hbm => 21
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S128x1024, .f32⟩
  | .hbm, ⟨3, _⟩ => ⟨S128, .f32⟩
  | .hbm, ⟨4, _⟩ => ⟨S_, .i32⟩
  | .hbm, ⟨5, _⟩ => ⟨S8, .i32⟩
  | .hbm, ⟨6, _⟩ => ⟨S4094, .i32⟩
  | .hbm, ⟨7, _⟩ => ⟨S1x4094, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8x1, .i32⟩
  | .hbm, ⟨12, _⟩ => ⟨S8x4094, .i32⟩
  | .hbm, ⟨13, _⟩ => ⟨S8x4094, .i32⟩
  | .hbm, ⟨14, _⟩ => ⟨S8x4094, .i1⟩
  | .hbm, ⟨15, _⟩ => ⟨S8x4094, .f32⟩
  | .hbm, ⟨16, _⟩ => ⟨S8x4094x1, .f32⟩
  | .hbm, ⟨17, _⟩ => ⟨S128x1024, .bf16⟩
  | .hbm, ⟨18, _⟩ => ⟨S1024x128, .bf16⟩
  | .hbm, ⟨19, _⟩ => ⟨S8x4094x128, .f32⟩
  | .hbm, ⟨20, _⟩ => ⟨S8x4094x1024, .f32⟩
  | .local _ .vmem, ⟨0, _⟩ => ⟨S1x4096x256, .f32⟩
  | .local _ .vmem, ⟨1, _⟩ => ⟨S1x4096x256, .f32⟩
  | .local _ .vmem, ⟨2, _⟩ => ⟨S1x4094x1, .f32⟩
  | .local _ .vmem, ⟨3, _⟩ => ⟨S1x4094x1, .f32⟩
  | .local _ .vmem, ⟨4, _⟩ => ⟨S1024x128, .bf16⟩
  | .local _ .vmem, ⟨5, _⟩ => ⟨S128, .f32⟩
  | .local _ .vmem, ⟨6, _⟩ => ⟨S1x4094x128, .f32⟩
  | .local _ .vmem, ⟨7, _⟩ => ⟨S1x4094x128, .f32⟩
  | .local _ .vmem, ⟨8, _⟩ => ⟨S1x4094x256, .f32⟩
  | .local _ .vmem, ⟨9, _⟩ => ⟨S1x4094x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c256_i32 : BitVec 32 := 256#32
  let v10 : BitVec 32 := Scalar.muli arg1 c256_i32
  v10
def k0_off1 (i : grid0.Coords) : Fin 2 → Nat :=
  let arg1 : BitVec 32 := BitVec.ofNat 32 (i 1).val
  let c256_i32 : BitVec 32 := 256#32
  let v10 : BitVec 32 := Scalar.muli arg1 c256_i32
  let v11 : BitVec 32 := v10
  let v12 : Index := Scalar.indexCast v11
  let c0_7 : Index := 0#32
  ![v12.toNat, 0]
def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_8 : BitVec 32 := 0#32
  let v18 : BitVec 1 := Scalar.cmpi .ne v17 c0_i32_8
  v18

def k0_cond2 (i : grid0.Coords) : BitVec 1 :=
  let arg1 : BitVec 32 := BitVec.ofNat 32 (i 1).val
  let c0_i32_9 : BitVec 32 := 0#32
  let v19 : BitVec 1 := Scalar.cmpi .sgt arg1 c0_i32_9
  let v20 : BitVec 32 := Scalar.extui v19
  let c0_i32_10 : BitVec 32 := 0#32
  let v21 : BitVec 1 := Scalar.cmpi .ne v20 c0_i32_10
  v21

def k0_cond3 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_11 : BitVec 32 := 0#32
  let v24 : BitVec 1 := Scalar.cmpi .ne v23 c0_i32_11
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4094x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4094x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4094x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8x4096_S8_d1 : S8x4096.ReducesTo [1] S8
  h_S_ : 0 < S_.numel
  bcast_S4094_S1x4094_1 : S4094.BroadcastsInDim S1x4094 (![1] : Fin 1 → Fin S1x4094.rank)
  bcast_S_S8 : S_.BroadcastsInDim S8 (![] : Fin 0 → Fin S8.rank)
  bcast_S8_S8x1_0 : S8.BroadcastsInDim S8x1 (![0] : Fin 1 → Fin S8x1.rank)
  bcast_S1x4094_S8x4094_0_1 : S1x4094.BroadcastsInDim S8x4094 (![0, 1] : Fin 2 → Fin S8x4094.rank)
  bcast_S8x1_S8x4094_0_1 : S8x1.BroadcastsInDim S8x4094 (![0, 1] : Fin 2 → Fin S8x4094.rank)
  bcast_S8x4094_S8x4094x1_0_1 : S8x4094.BroadcastsInDim S8x4094x1 (![0, 1] : Fin 2 → Fin S8x4094x1.rank)
  bitsLt_bf16_f32 : FTy.bits .bf16 < FTy.bits .f32
  transposes_S128x1024_S1024x128_1_0 : S128x1024.Transposes [1, 0] S1024x128
  inb_S1x4096x256_S1x4094x256_0_1_0 : ∀ a, (![0, 1, 0] : Fin 3 → Nat) a + S1x4094x256.size a ≤ S1x4096x256.size a
  h_S1x4094x256 : 0 < S1x4094x256.numel
  shapeCasts_S1x4094x256_S4094x256 : S1x4094x256.ShapeCasts S4094x256
  inb_S1x4094x1_S1x4094x1_0_0_0 : ∀ a, (![0, 0, 0] : Fin 3 → Nat) a + S1x4094x1.size a ≤ S1x4094x1.size a
  h_S1x4094x1 : 0 < S1x4094x1.numel
  shapeCasts_S1x4094x1_S4094x1 : S1x4094x1.ShapeCasts S4094x1
  broadcasts_S4094x1_S4094x256 : S4094x1.Broadcasts S4094x256
  inb_S1x4094x256_S1x4094x256_0_0_0 : ∀ a, (![0, 0, 0] : Fin 3 → Nat) a + S1x4094x256.size a ≤ S1x4094x256.size a
  shapeCasts_S4094x256_S1x4094x256 : S4094x256.ShapeCasts S1x4094x256
  h_S256x128 : 0 < S256x128.numel
  shapeCasts_S256x128_S256x128 : S256x128.ShapeCasts S256x128
  inb_S1x4094x128_S1x4094x128_0_0_0 : ∀ a, (![0, 0, 0] : Fin 3 → Nat) a + S1x4094x128.size a ≤ S1x4094x128.size a
  h_S1x4094x128 : 0 < S1x4094x128.numel
  shapeCasts_S1x4094x128_S4094x128 : S1x4094x128.ShapeCasts S4094x128
  shapeCasts_S4094x128_S1x4094x128 : S4094x128.ShapeCasts S1x4094x128
  inb_S128_S128_0 : ∀ a, (![0] : Fin 1 → Nat) a + S128.size a ≤ S128.size a
  h_S128 : 0 < S128.numel
  shapeCasts_S128_S1x128 : S128.ShapeCasts S1x128
  broadcasts_S1x128_S4094x128 : S1x128.Broadcasts S4094x128
  dot_S4094x256_S256x128_S4094x128_1_0_0_1_n_n_wf : DotDims.WF S4094x256 S256x128 S4094x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S256x128.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x4096x1024.size a
  hwx0_0 : ∀ i : grid0.Coords, EltTy.bits .f32 = 32 ∨ (Rect.block (s := S8x4096x1024) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4094x1.size a ≤ S8x4094x1.size a
  hwx0_1 : ∀ i : grid0.Coords, EltTy.bits .f32 = 32 ∨ (Rect.block (s := S8x4094x1) S1x4094x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4094x128.size a ≤ S8x4094x128.size a
  hwx0_4 : ∀ i : grid0.Coords, EltTy.bits .f32 = 32 ∨ (Rect.block (s := S8x4094x128) S1x4094x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4094x256.size a ≤ S8x4094x1024.size a
  hwx0_5 : ∀ i : grid0.Coords, EltTy.bits .f32 = 32 ∨ (Rect.block (s := S8x4094x1024) S1x4094x256.size (cc0_transform_5 i) (hinb0_5 i)).WholeWords (EltTy.packing .f32)

variable [Facts₀]

def dot_S4094x256_S256x128_S4094x128_1_0_0_1_n_n : DotDims S4094x256 S256x128 S4094x128 where
  lhsContracting := [1]
  rhsContracting := [0]
  lhsNonContracting := [0]
  rhsNonContracting := [1]
  lhsBatch := []
  rhsBatch := []
  wf := dot_S4094x256_S256x128_S4094x128_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x4094x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S1x4094x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S1x4094x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) && !(k0_cond3 i == 1#1) | 5 => fun _ => false | ⟨_ + 6, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S128x1024 : Shape := ⟨2, ![128, 1024]⟩
abbrev S128 : Shape := ⟨1, ![128]⟩
abbrev S_ : Shape := ⟨0, ![]⟩
abbrev S8 : Shape := ⟨1, ![8]⟩
abbrev S4094 : Shape := ⟨1, ![4094]⟩
abbrev S1x4094 : Shape := ⟨2, ![1, 4094]⟩
abbrev S8x1 : Shape := ⟨2, ![8, 1]⟩
abbrev S8x4094 : Shape := ⟨2, ![8, 4094]⟩
abbrev S8x4094x1024 : Shape := ⟨3, ![8, 4094, 1024]⟩
abbrev S8x4094x1 : Shape := ⟨3, ![8, 4094, 1]⟩
abbrev S8x4094x128 : Shape := ⟨3, ![8, 4094, 128]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S128x1024, .f32⟩
  | .hbm, ⟨3, _⟩ => ⟨S128, .f32⟩
  | .hbm, ⟨4, _⟩ => ⟨S_, .i32⟩
  | .hbm, ⟨5, _⟩ => ⟨S8, .i32⟩
  | .hbm, ⟨6, _⟩ => ⟨S4094, .i32⟩
  | .hbm, ⟨7, _⟩ => ⟨S1x4094, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8x1, .i32⟩
  | .hbm, ⟨12, _⟩ => ⟨S8x4094, .i32⟩
  | .hbm, ⟨13, _⟩ => ⟨S8x4094, .i32⟩
  | .hbm, ⟨14, _⟩ => ⟨S8x4094, .i1⟩
  | .hbm, ⟨15, _⟩ => ⟨S8x4094x1024, .f32⟩
  | .hbm, ⟨16, _⟩ => ⟨S8x4094x1, .i1⟩
  | .hbm, ⟨17, _⟩ => ⟨S8x4094x1, .f32⟩
  | .hbm, ⟨18, _⟩ => ⟨S8x4094x1024, .f32⟩
  | .hbm, ⟨19, _⟩ => ⟨S8x4094x1024, .f32⟩
  | .hbm, ⟨20, _⟩ => ⟨S8x4094, .i32⟩
  | .hbm, ⟨21, _⟩ => ⟨S8x4094, .i32⟩
  | .hbm, ⟨22, _⟩ => ⟨S8x4094, .i32⟩
  | .hbm, ⟨23, _⟩ => ⟨S8x4094x128, .f32⟩
  | .hbm, ⟨24, _⟩ => ⟨S1x1x128, .f32⟩
  | .hbm, ⟨25, _⟩ => ⟨S8x4094x128, .f32⟩
  | .hbm, ⟨26, _⟩ => ⟨S8x4094x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  reducesTo_S8x4096_S8_d1 : S8x4096.ReducesTo [1] S8
  h_S_ : 0 < S_.numel
  bcast_S4094_S1x4094_1 : S4094.BroadcastsInDim S1x4094 (![1] : Fin 1 → Fin S1x4094.rank)
  bcast_S_S8 : S_.BroadcastsInDim S8 (![] : Fin 0 → Fin S8.rank)
  bcast_S8_S8x1_0 : S8.BroadcastsInDim S8x1 (![0] : Fin 1 → Fin S8x1.rank)
  bcast_S1x4094_S8x4094_0_1 : S1x4094.BroadcastsInDim S8x4094 (![0, 1] : Fin 2 → Fin S8x4094.rank)
  bcast_S8x1_S8x4094_0_1 : S8x1.BroadcastsInDim S8x4094 (![0, 1] : Fin 2 → Fin S8x4094.rank)
  slices_S8x4096x1024_S8x4094x1024_0_1_0 : S8x4096x1024.Slices ![0, 1, 0] S8x4094x1024
  bcast_S8x4094_S8x4094x1_0_1 : S8x4094.BroadcastsInDim S8x4094x1 (![0, 1] : Fin 2 → Fin S8x4094x1.rank)
  bcast_S8x4094x1_S8x4094x1024_0_1_2 : S8x4094x1.BroadcastsInDim S8x4094x1024 (![0, 1, 2] : Fin 3 → Fin S8x4094x1024.rank)
  slices_S8x4096_S8x4094_0_1 : S8x4096.Slices ![0, 1] S8x4094
  natLt_1_32 : 1 < 32
  bcast_S128_S1x1x128_2 : S128.BroadcastsInDim S1x1x128 (![2] : Fin 1 → Fin S1x1x128.rank)
  bcast_S1x1x128_S8x4094x128_0_1_2 : S1x1x128.BroadcastsInDim S8x4094x128 (![0, 1, 2] : Fin 3 → Fin S8x4094x128.rank)
  dot_S8x4094x1024_S128x1024_S8x4094x128_2_1_01_0_n_n_wf : DotDims.WF S8x4094x1024 S128x1024 S8x4094x128 [2] [1] [0, 1] [0] [] []

variable [Facts₀]

def dot_S8x4094x1024_S128x1024_S8x4094x128_2_1_01_0_n_n : DotDims S8x4094x1024 S128x1024 S8x4094x128 where
  lhsContracting := [2]
  rhsContracting := [1]
  lhsNonContracting := [0, 1]
  rhsNonContracting := [0]
  lhsBatch := []
  rhsBatch := []
  wf := dot_S8x4094x1024_S128x1024_S8x4094x128_2_1_01_0_n_n_wf

class Facts : Prop extends Facts₀ where

variable [Facts]
-- ==== Proof.KernelSteps.lean ====
/-
  The grid is 8 batches × 4 column tiles of the hidden axis, visited batch by batch; the point `t` works on tile
  `t mod 4` of batch `t / 4`. The body has three guarded stores into the logits block, which stays resident over
  a batch's four tiles: at tile 0 the block is overwritten with the tile's partial product, at tiles 1, 2, 3 the
  partial product is added to it, and at tile 3 the bias row is added on top. Here: the three guards decided
  over the grid in closed form, and the staging memrefs the body is called with at a point.
-/
import proofs.«404583_j67568425500679_3_alg».proof.Proof.Gen.Kernel.Frame
import proofs.«404583_j67568425500679_3_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The overwrite guard (`hi == 0`) holds exactly at the first tile of each batch. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The accumulate guard (`hi > 0`) holds exactly at the later tiles. -/
theorem later_iff : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)

/-- The bias guard (`hi == 3`) holds exactly at the last tile of each batch. -/
theorem last_iff : ∀ t : Fin cfg0.N, k0_cond3 (grid0.coords t) = 1#1 ↔ t.val % 4 = 3 :=
  (by decide +kernel : ∀ t : Fin grid0.N, k0_cond3 (grid0.coords t) = 1#1 ↔ t.val % 4 = 3)

/-- One staging buffer of the logits window, through which its contents are stated. -/
abbrev VL : View sig .tc .vmem S1x4094x128 .f32 := (Memref.whole cc0_stg4_0 : Memref sig .tc .vmem S1x4094x128 .f32).view
/-- One staging buffer of the context window, through which its contents are stated. -/
abbrev VC : View sig .tc .vmem S1x4094x256 .f32 := (Memref.whole cc0_stg5_0 : Memref sig .tc .vmem S1x4094x256 .f32).view

/-- Each window's current staging memref at point `t`, as the pipeline passes it, and its wholeness. -/
abbrev ms0 (t : Fin cfg0.N) : Memref sig .tc .vmem S1x4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4094x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4094x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4094x256 .f32 := win0_5.stage (cfg0.slots t 5)
abbrev hs5 (t : Fin cfg0.N) : (ms5 t).IsWhole := hstage0_5 ((cfg0.slots t 5).cast nbuf0_5)

end Cert.Kernel.Body

end
-- ==== Proof.KernelFirst.lean ====
/-
  The body at the first tile of a batch (`hi = 0`): the masked, shifted rows are stored as the context block and the tile's
  partial product overwrites the logits block; the other two guards are off.
-/
import proofs.«404583_j67568425500679_3_alg».proof.Proof.KernelSteps

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the logits buffer (`LL`) and in the context buffer (`LC`), last store
    first, with the proof that from whole staging memrefs — the four inputs at their contents, the logits buffer at anything, the context buffer at
    anything — the body runs to a continuation that is handed the inputs as they were and each output buffer
    with those pieces written. -/
noncomputable def runFirst (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) :
    Σ' (LL : List (View.Piece (Elt F) S1x4094x128 .f32)), { LC : List (View.Piece (Elt F) S1x4094x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LL) ∗ (∃ f, arg7.view.loc (c : Thread nD τ) ↦[arg7.view.set]{fullShare} arg7.view.writes (Elt F) f LC)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Body

end
-- ==== Proof.KernelMiddle.lean ====
/-
  The body at a middle tile of a batch (`hi = 1, 2`): the context block is stored as at every tile, and the tile's partial
  product is added to what the logits block holds from the tile before; the overwrite and the bias guards are off.
-/
import proofs.«404583_j67568425500679_3_alg».proof.Proof.KernelFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the logits buffer (`LL`) and in the context buffer (`LC`), last store
    first, with the proof that from whole staging memrefs — the four inputs at their contents, the logits buffer at the running contents `acc`, the context buffer at
    anything — the body runs to a continuation that is handed the inputs as they were and each output buffer
    with those pieces written. -/
noncomputable def runMiddle (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) :
    Σ' (LL : List (View.Piece (Elt F) S1x4094x128 .f32)), { LC : List (View.Piece (Elt F) S1x4094x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare acc ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LL) ∗ (∃ f, arg7.view.loc (c : Thread nD τ) ↦[arg7.view.set]{fullShare} arg7.view.writes (Elt F) f LC)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Body

end
-- ==== Proof.KernelLast.lean ====
/-
  The body at the last tile of a batch (`hi = 3`): the context block is stored, the tile's partial product is added to the
  logits block, and then the bias row, broadcast down the rows, is added to the block read back.
-/
import proofs.«404583_j67568425500679_3_alg».proof.Proof.KernelMiddle

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the logits buffer (`LL`) and in the context buffer (`LC`), last store
    first, with the proof that from whole staging memrefs — the four inputs at their contents, the logits buffer at the running contents `acc`, the context buffer at
    anything — the body runs to a continuation that is handed the inputs as they were and each output buffer
    with those pieces written. -/
noncomputable def runLast (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) :
    Σ' (LL : List (View.Piece (Elt F) S1x4094x128 .f32)), { LC : List (View.Piece (Elt F) S1x4094x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare acc ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LL) ∗ (∃ f, arg7.view.loc (c : Thread nD τ) ↦[arg7.view.set]{fullShare} arg7.view.writes (Elt F) f LC)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Body

end
-- ==== Proof.KernelFrame.lean ====
/-
  The frame of the kernel program. What the two output buffers hold after the body at a grid point: the context
  buffer holds the point's own masked rows; the logits buffer, resident over a batch's four tiles, holds the sum
  of the partial products of the tiles met so far in the batch (and, after the last tile, the bias row on top).
  The logits contents are therefore defined by recursion over the points, each later tile over what the tile
  before left; the block is written back only after a batch's last tile, so between two tiles of one batch the
  buffer is found as it was left. From this proof data: the body's obligation at every point (one of three runs,
  chosen by the tile's number), the run of the whole program, and the frame claim.
-/
import proofs.«404583_j67568425500679_3_alg».proof.Proof.KernelLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards at a point, from the tile's number -/

theorem c1_of_first (t : Fin cfg0.N) (h : t.val % 4 = 0) : k0_cond1 (grid0.coords t) = 1#1 := (first_iff t).mpr h
theorem nc2_of_first (t : Fin cfg0.N) (h : t.val % 4 = 0) : ¬k0_cond2 (grid0.coords t) = 1#1 := fun h' => (later_iff t).mp h' h
theorem nc3_of_first (t : Fin cfg0.N) (h : t.val % 4 = 0) : ¬k0_cond3 (grid0.coords t) = 1#1 := fun h' => by
  have := (last_iff t).mp h'; omega
theorem nc1_of_later (t : Fin cfg0.N) (h : ¬t.val % 4 = 0) : ¬k0_cond1 (grid0.coords t) = 1#1 := fun h' => h ((first_iff t).mp h')
theorem c2_of_later (t : Fin cfg0.N) (h : ¬t.val % 4 = 0) : k0_cond2 (grid0.coords t) = 1#1 := (later_iff t).mpr h
theorem nc3_of_notlast (t : Fin cfg0.N) (h : ¬t.val % 4 = 3) : ¬k0_cond3 (grid0.coords t) = 1#1 := fun h' => h ((last_iff t).mp h')
theorem c3_of_last (t : Fin cfg0.N) (h : t.val % 4 = 3) : k0_cond3 (grid0.coords t) = 1#1 := (last_iff t).mpr h
theorem ne0_of_last (t : Fin cfg0.N) (h : t.val % 4 = 3) : ¬t.val % 4 = 0 := by omega

/-- At every grid point one of the first two guards holds, so the logits window is never idle. -/
theorem logits_live (i : grid0.Coords) : cfg0.idle 4 i = false := by
  show (!(k0_cond1 i == 1#1) && !(k0_cond2 i == 1#1) && !(k0_cond3 i == 1#1)) = false
  have key : ∀ j : Fin 4, (Scalar.cmpi .ne (Scalar.extui (Scalar.cmpi .eq (BitVec.ofNat 32 j.val) 0#32)) 0#32) = 1#1
      ∨ (Scalar.cmpi .ne (Scalar.extui (Scalar.cmpi .sgt (BitVec.ofNat 32 j.val) 0#32)) 0#32) = 1#1 := by decide
  have h : k0_cond1 i = 1#1 ∨ k0_cond2 i = 1#1 := key (i 1)
  rcases h with h | h <;> simp [h]

/-! ## What each kind of step leaves in the two output buffers -/

/-- The stores of a first step into the logits buffer tile its block, so they cover it. -/
theorem coverFirstL (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) (y : S1x4094x128.Idx) :
    ∃ pc ∈ (runFirst c i arg2 harg2 arg3 harg3 arg4 harg4 arg5 harg5 arg6 harg6 arg7 harg7 hc1 hc2 hc3 x0 x1 x2 x3).1, y ∈ pc.1.set :=
  View.cover_of_tiledL (runFirst c i arg2 harg2 arg3 harg3 arg4 harg4 arg5 harg5 arg6 harg6 arg7 harg7 hc1 hc2 hc3 x0 x1 x2 x3).1 S1x4094x128.size (by sl_kernel_rfl) y

/-- The store of a first step into the context buffer covers its block. -/
theorem coverFirstC (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) (y : S1x4094x256.Idx) :
    ∃ pc ∈ (runFirst c i arg2 harg2 arg3 harg3 arg4 harg4 arg5 harg5 arg6 harg6 arg7 harg7 hc1 hc2 hc3 x0 x1 x2 x3).2.1, y ∈ pc.1.set :=
  View.cover_of_tiledL (runFirst c i arg2 harg2 arg3 harg3 arg4 harg4 arg5 harg5 arg6 harg6 arg7 harg7 hc1 hc2 hc3 x0 x1 x2 x3).2.1 S1x4094x256.size (by sl_kernel_rfl) y

/-- What a first step leaves in the logits buffer: its pieces read back. -/
def logitsFirst (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) : Vec F S1x4094x128 .f32 :=
  VL.read (Elt F) (VL.writes (Elt F) VL.junk (runFirst c i arg2 harg2 arg3 harg3 arg4 harg4 arg5 harg5 arg6 harg6 arg7 harg7 hc1 hc2 hc3 x0 x1 x2 x3).1)

/-- What a first step leaves in the context buffer: its pieces read back. -/
def ctxFirst (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) : Vec F S1x4094x256 .f32 :=
  VC.read (Elt F) (VC.writes (Elt F) VC.junk (runFirst c i arg2 harg2 arg3 harg3 arg4 harg4 arg5 harg5 arg6 harg6 arg7 harg7 hc1 hc2 hc3 x0 x1 x2 x3).2.1)

/-- The stores of a middle step into the logits buffer tile its block, so they cover it. -/
theorem coverMiddleL (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) (y : S1x4094x128.Idx) :
    ∃ pc ∈ (runMiddle c i arg2 harg2 arg3 harg3 arg4 harg4 arg5 harg5 arg6 harg6 arg7 harg7 hc1 hc2 hc3 x0 x1 x2 x3 acc).1, y ∈ pc.1.set :=
  View.cover_of_tiledL (runMiddle c i arg2 harg2 arg3 harg3 arg4 harg4 arg5 harg5 arg6 harg6 arg7 harg7 hc1 hc2 hc3 x0 x1 x2 x3 acc).1 S1x4094x128.size (by sl_kernel_rfl) y

/-- The store of a middle step into the context buffer covers its block. -/
theorem coverMiddleC (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) (y : S1x4094x256.Idx) :
    ∃ pc ∈ (runMiddle c i arg2 harg2 arg3 harg3 arg4 harg4 arg5 harg5 arg6 harg6 arg7 harg7 hc1 hc2 hc3 x0 x1 x2 x3 acc).2.1, y ∈ pc.1.set :=
  View.cover_of_tiledL (runMiddle c i arg2 harg2 arg3 harg3 arg4 harg4 arg5 harg5 arg6 harg6 arg7 harg7 hc1 hc2 hc3 x0 x1 x2 x3 acc).2.1 S1x4094x256.size (by sl_kernel_rfl) y

/-- What a middle step leaves in the logits buffer: its pieces read back. -/
def logitsMiddle (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) : Vec F S1x4094x128 .f32 :=
  VL.read (Elt F) (VL.writes (Elt F) VL.junk (runMiddle c i arg2 harg2 arg3 harg3 arg4 harg4 arg5 harg5 arg6 harg6 arg7 harg7 hc1 hc2 hc3 x0 x1 x2 x3 acc).1)

/-- What a middle step leaves in the context buffer: its pieces read back. -/
def ctxMiddle (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) : Vec F S1x4094x256 .f32 :=
  VC.read (Elt F) (VC.writes (Elt F) VC.junk (runMiddle c i arg2 harg2 arg3 harg3 arg4 harg4 arg5 harg5 arg6 harg6 arg7 harg7 hc1 hc2 hc3 x0 x1 x2 x3 acc).2.1)

/-- The stores of a last step into the logits buffer tile its block, so they cover it. -/
theorem coverLastL (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) (y : S1x4094x128.Idx) :
    ∃ pc ∈ (runLast c i arg2 harg2 arg3 harg3 arg4 harg4 arg5 harg5 arg6 harg6 arg7 harg7 hc1 hc2 hc3 x0 x1 x2 x3 acc).1, y ∈ pc.1.set :=
  View.cover_of_tiledL (runLast c i arg2 harg2 arg3 harg3 arg4 harg4 arg5 harg5 arg6 harg6 arg7 harg7 hc1 hc2 hc3 x0 x1 x2 x3 acc).1 S1x4094x128.size (by sl_kernel_rfl) y

/-- The store of a last step into the context buffer covers its block. -/
theorem coverLastC (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) (y : S1x4094x256.Idx) :
    ∃ pc ∈ (runLast c i arg2 harg2 arg3 harg3 arg4 harg4 arg5 harg5 arg6 harg6 arg7 harg7 hc1 hc2 hc3 x0 x1 x2 x3 acc).2.1, y ∈ pc.1.set :=
  View.cover_of_tiledL (runLast c i arg2 harg2 arg3 harg3 arg4 harg4 arg5 harg5 arg6 harg6 arg7 harg7 hc1 hc2 hc3 x0 x1 x2 x3 acc).2.1 S1x4094x256.size (by sl_kernel_rfl) y

/-- What a last step leaves in the logits buffer: its pieces read back. -/
def logitsLast (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) : Vec F S1x4094x128 .f32 :=
  VL.read (Elt F) (VL.writes (Elt F) VL.junk (runLast c i arg2 harg2 arg3 harg3 arg4 harg4 arg5 harg5 arg6 harg6 arg7 harg7 hc1 hc2 hc3 x0 x1 x2 x3 acc).1)

/-- What a last step leaves in the context buffer: its pieces read back. -/
def ctxLast (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) : Vec F S1x4094x256 .f32 :=
  VC.read (Elt F) (VC.writes (Elt F) VC.junk (runLast c i arg2 harg2 arg3 harg3 arg4 harg4 arg5 harg5 arg6 harg6 arg7 harg7 hc1 hc2 hc3 x0 x1 x2 x3 acc).2.1)

/-! ## The logits buffer point by point -/

/-- What the logits buffer holds after the body at position `n`: at a batch's first tile the tile's partial product;
    at a later tile the step's result over what the tile before left (the buffer is not written back between). -/
def logitsAt (c : Dev nD) : (n : ℕ) → n < cfg0.N → Vec F S1x4094x128 .f32
  | 0, hn => logitsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (c1_of_first ⟨0, hn⟩ (Nat.zero_mod _)) (nc2_of_first ⟨0, hn⟩ (Nat.zero_mod _)) (nc3_of_first ⟨0, hn⟩ (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      logitsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (c1_of_first ⟨n + 1, hn⟩ h0) (nc2_of_first ⟨n + 1, hn⟩ h0) (nc3_of_first ⟨n + 1, hn⟩ h0) (iblk m c 0 ⟨n + 1, hn⟩) (iblk m c 1 ⟨n + 1, hn⟩) (iblk m c 2 ⟨n + 1, hn⟩) (iblk m c 3 ⟨n + 1, hn⟩)
    else if h3 : (n + 1) % 4 = 3 then
      logitsLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (nc1_of_later ⟨n + 1, hn⟩ (ne0_of_last ⟨n + 1, hn⟩ h3)) (c2_of_later ⟨n + 1, hn⟩ (ne0_of_last ⟨n + 1, hn⟩ h3)) (c3_of_last ⟨n + 1, hn⟩ h3) (iblk m c 0 ⟨n + 1, hn⟩) (iblk m c 1 ⟨n + 1, hn⟩) (iblk m c 2 ⟨n + 1, hn⟩) (iblk m c 3 ⟨n + 1, hn⟩) (logitsAt c n (Nat.lt_of_succ_lt hn))
    else
      logitsMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (nc1_of_later ⟨n + 1, hn⟩ h0) (c2_of_later ⟨n + 1, hn⟩ h0) (nc3_of_notlast ⟨n + 1, hn⟩ h3) (iblk m c 0 ⟨n + 1, hn⟩) (iblk m c 1 ⟨n + 1, hn⟩) (iblk m c 2 ⟨n + 1, hn⟩) (iblk m c 3 ⟨n + 1, hn⟩) (logitsAt c n (Nat.lt_of_succ_lt hn))

theorem logitsAt_first (c : Dev nD) (t : Fin cfg0.N) (h0 : t.val % 4 = 0) :
    logitsAt m c t.val t.isLt = logitsFirst c (grid0.coords t) (ms0 t) (hs0 t) (ms1 t) (hs1 t) (ms2 t) (hs2 t) (ms3 t) (hs3 t) (ms4 t) (hs4 t) (ms5 t) (hs5 t) (c1_of_first t h0) (nc2_of_first t h0) (nc3_of_first t h0) (iblk m c 0 t) (iblk m c 1 t) (iblk m c 2 t) (iblk m c 3 t) := by
  obtain ⟨n, hn⟩ := t
  cases n with
  | zero => exact rfl
  | succ n => exact (dif_pos h0).trans rfl

theorem logitsAt_middle (c : Dev nD) (t : Fin cfg0.N) (h0 : ¬t.val % 4 = 0) (h3 : ¬t.val % 4 = 3) :
    logitsAt m c t.val t.isLt = logitsMiddle c (grid0.coords t) (ms0 t) (hs0 t) (ms1 t) (hs1 t) (ms2 t) (hs2 t) (ms3 t) (hs3 t) (ms4 t) (hs4 t) (ms5 t) (hs5 t) (nc1_of_later t h0) (c2_of_later t h0) (nc3_of_notlast t h3) (iblk m c 0 t) (iblk m c 1 t) (iblk m c 2 t) (iblk m c 3 t) (logitsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem logitsAt_last (c : Dev nD) (t : Fin cfg0.N) (h3 : t.val % 4 = 3) :
    logitsAt m c t.val t.isLt = logitsLast c (grid0.coords t) (ms0 t) (hs0 t) (ms1 t) (hs1 t) (ms2 t) (hs2 t) (ms3 t) (hs3 t) (ms4 t) (hs4 t) (ms5 t) (hs5 t) (nc1_of_later t (ne0_of_last t h3)) (c2_of_later t (ne0_of_last t h3)) (c3_of_last t h3) (iblk m c 0 t) (iblk m c 1 t) (iblk m c 2 t) (iblk m c 3 t) (logitsAt m c (t.val - 1) (Nat.lt_of_le_of_lt (Nat.sub_le _ _) t.isLt)) := by
  obtain ⟨n, hn⟩ := t
  cases n with
  | zero => exact absurd h3 (by show ¬(0 % 4 = 3); decide)
  | succ n => exact (dif_neg (ne0_of_last ⟨n + 1, hn⟩ h3)).trans ((dif_pos h3).trans rfl)

/-- What the context buffer holds after the body at point `t`: the step's own store. -/
def ctxAt (c : Dev nD) (t : Fin cfg0.N) : Vec F S1x4094x256 .f32 :=
  if h0 : t.val % 4 = 0 then
    ctxFirst c (grid0.coords t) (ms0 t) (hs0 t) (ms1 t) (hs1 t) (ms2 t) (hs2 t) (ms3 t) (hs3 t) (ms4 t) (hs4 t) (ms5 t) (hs5 t) (c1_of_first t h0) (nc2_of_first t h0) (nc3_of_first t h0) (iblk m c 0 t) (iblk m c 1 t) (iblk m c 2 t) (iblk m c 3 t)
  else if h3 : t.val % 4 = 3 then
    ctxLast c (grid0.coords t) (ms0 t) (hs0 t) (ms1 t) (hs1 t) (ms2 t) (hs2 t) (ms3 t) (hs3 t) (ms4 t) (hs4 t) (ms5 t) (hs5 t) (nc1_of_later t (ne0_of_last t h3)) (c2_of_later t (ne0_of_last t h3)) (c3_of_last t h3) (iblk m c 0 t) (iblk m c 1 t) (iblk m c 2 t) (iblk m c 3 t) (logitsAt m c (t.val - 1) (Nat.lt_of_le_of_lt (Nat.sub_le _ _) t.isLt))
  else
    ctxMiddle c (grid0.coords t) (ms0 t) (hs0 t) (ms1 t) (hs1 t) (ms2 t) (hs2 t) (ms3 t) (hs3 t) (ms4 t) (hs4 t) (ms5 t) (hs5 t) (nc1_of_later t h0) (c2_of_later t h0) (nc3_of_notlast t h3) (iblk m c 0 t) (iblk m c 1 t) (iblk m c 2 t) (iblk m c 3 t) (logitsAt m c (t.val - 1) (Nat.lt_of_le_of_lt (Nat.sub_le _ _) t.isLt))

theorem ctxAt_first (c : Dev nD) (t : Fin cfg0.N) (h0 : t.val % 4 = 0) :
    ctxAt m c t = ctxFirst c (grid0.coords t) (ms0 t) (hs0 t) (ms1 t) (hs1 t) (ms2 t) (hs2 t) (ms3 t) (hs3 t) (ms4 t) (hs4 t) (ms5 t) (hs5 t) (c1_of_first t h0) (nc2_of_first t h0) (nc3_of_first t h0) (iblk m c 0 t) (iblk m c 1 t) (iblk m c 2 t) (iblk m c 3 t) := dif_pos h0
theorem ctxAt_middle (c : Dev nD) (t : Fin cfg0.N) (h0 : ¬t.val % 4 = 0) (h3 : ¬t.val % 4 = 3) :
    ctxAt m c t = ctxMiddle c (grid0.coords t) (ms0 t) (hs0 t) (ms1 t) (hs1 t) (ms2 t) (hs2 t) (ms3 t) (hs3 t) (ms4 t) (hs4 t) (ms5 t) (hs5 t) (nc1_of_later t h0) (c2_of_later t h0) (nc3_of_notlast t h3) (iblk m c 0 t) (iblk m c 1 t) (iblk m c 2 t) (iblk m c 3 t) (logitsAt m c (t.val - 1) (Nat.lt_of_le_of_lt (Nat.sub_le _ _) t.isLt)) := (dif_neg h0).trans (dif_neg h3)
theorem ctxAt_last (c : Dev nD) (t : Fin cfg0.N) (h3 : t.val % 4 = 3) :
    ctxAt m c t = ctxLast c (grid0.coords t) (ms0 t) (hs0 t) (ms1 t) (hs1 t) (ms2 t) (hs2 t) (ms3 t) (hs3 t) (ms4 t) (hs4 t) (ms5 t) (hs5 t) (nc1_of_later t (ne0_of_last t h3)) (c2_of_later t (ne0_of_last t h3)) (c3_of_last t h3) (iblk m c 0 t) (iblk m c 1 t) (iblk m c 2 t) (iblk m c 3 t) (logitsAt m c (t.val - 1) (Nat.lt_of_le_of_lt (Nat.sub_le _ _) t.isLt)) := (dif_neg (ne0_of_last t h3)).trans (dif_pos h3)

/-! ## The pipeline's proof data -/

/-- The arrays as the region finds them; after the body at point `t` each input's buffer at its block, the logits
    buffer at `logitsAt`, the context buffer at `ctxAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => logitsAt m c t.val t.isLt
    | ⟨5, _⟩ => ctxAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = logitsAt m c t.val t.isLt := by dsimp only [dats]
theorem after5 (c : Dev nD) (t : Fin cfg0.N) : (dats m 0 c).after 5 t = ctxAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later tile of a batch the logits buffer holds what the body left at the tile before: the point is not the
    first, the block was not written back between (it is only after a batch's last tile), and the window is never
    idle and never clipped. -/
theorem before4_later (c : Dev nD) (t : Fin cfg0.N) (h0 : ¬t.val % 4 = 0) (d) :
    (dats m 0 c).before 4 t d = logitsAt m c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    logits_live (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the tile's number says which step the point is; at a
    later tile the logits buffer holds what the tile before left; so that step's run applies, and what it leaves is
    what the proof data names. The invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 4 = 0
  ·
    rw [logitsAt_first m c t h0, ctxAt_first m c t h0]
    unfold logitsFirst ctxFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ (c1_of_first t h0) (nc2_of_first t h0) (nc3_of_first t h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverFirstL c _ _ _ _ _ _ _ _ _ _ _ _ _ _ _ _ _ _ _ _)
    unfold owns; iexists _; isplitr
    swap; · iexact H5
    ipureintro; exact View.read_writes_of_cover _ _ _ _ _ (coverFirstC c _ _ _ _ _ _ _ _ _ _ _ _ _ _ _ _ _ _ _ _)
  · simp only [before4_later m c t h0]
    by_cases h3 : t.val % 4 = 3
    ·
      rw [logitsAt_last m c t h3, ctxAt_last m c t h3]
      unfold logitsLast ctxLast
      iintro ⟨HΦ, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ (nc1_of_later t (ne0_of_last t h3)) (c2_of_later t (ne0_of_last t h3)) (c3_of_last t h3) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverLastL c _ _ _ _ _ _ _ _ _ _ _ _ _ _ _ _ _ _ _ _ _)
      unfold owns; iexists _; isplitr
      swap; · iexact H5
      ipureintro; exact View.read_writes_of_cover _ _ _ _ _ (coverLastC c _ _ _ _ _ _ _ _ _ _ _ _ _ _ _ _ _ _ _ _ _)
    ·
      rw [logitsAt_middle m c t h0 h3, ctxAt_middle m c t h0 h3]
      unfold logitsMiddle ctxMiddle
      iintro ⟨HΦ, Ho, ⟨%d0, H0⟩, ⟨%d1, H1⟩, ⟨%d2, H2⟩, ⟨%d3, H3⟩, ⟨%d4, H4⟩, ⟨%d5, H5⟩⟩
      iapply ((runMiddle c (grid0.coords t) _ _ _ _ _ _ _ _ _ _ _ _ (nc1_of_later t h0) (c2_of_later t h0) (nc3_of_notlast t h3) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverMiddleL c _ _ _ _ _ _ _ _ _ _ _ _ _ _ _ _ _ _ _ _ _)
      unfold owns; iexists _; isplitr
      swap; · iexact H5
      ipureintro; exact View.read_writes_of_cover _ _ _ _ _ (coverMiddleC c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  beta_reduce
  rw [logits_live (cfg0.grid.coords t)]
  exact sound_body m c t

/-! ## The run and the frame -/

set_option maxHeartbeats 1600000 in
set_option backward.isDefEq.respectTransparency.types false in
/-- From any memory with zero counters every weakly fair execution of the program terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KernelIdealSteps.lean ====
/-
  The grid is 8 batches × 4 column tiles of the hidden axis, visited batch by batch; the point `t` works on tile
  `t mod 4` of batch `t / 4`. The body has three guarded stores into the logits block, which stays resident over
  a batch's four tiles: at tile 0 the block is overwritten with the tile's partial product, at tiles 1, 2, 3 the
  partial product is added to it, and at tile 3 the bias row is added on top. Here: the three guards decided
  over the grid in closed form, and the staging memrefs the body is called with at a point.
-/
import proofs.«404583_j67568425500679_3_alg».proof.Proof.Gen.KernelIdeal.Frame
import proofs.«404583_j67568425500679_3_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The overwrite guard (`hi == 0`) holds exactly at the first tile of each batch. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The accumulate guard (`hi > 0`) holds exactly at the later tiles. -/
theorem later_iff : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)

/-- The bias guard (`hi == 3`) holds exactly at the last tile of each batch. -/
theorem last_iff : ∀ t : Fin cfg0.N, k0_cond3 (grid0.coords t) = 1#1 ↔ t.val % 4 = 3 :=
  (by decide +kernel : ∀ t : Fin grid0.N, k0_cond3 (grid0.coords t) = 1#1 ↔ t.val % 4 = 3)

/-- One staging buffer of the logits window, through which its contents are stated. -/
abbrev VL : View sig .tc .vmem S1x4094x128 .f32 := (Memref.whole cc0_stg4_0 : Memref sig .tc .vmem S1x4094x128 .f32).view
/-- One staging buffer of the context window, through which its contents are stated. -/
abbrev VC : View sig .tc .vmem S1x4094x256 .f32 := (Memref.whole cc0_stg5_0 : Memref sig .tc .vmem S1x4094x256 .f32).view

/-- Each window's current staging memref at point `t`, as the pipeline passes it, and its wholeness. -/
abbrev ms0 (t : Fin cfg0.N) : Memref sig .tc .vmem S1x4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4094x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4094x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4094x256 .f32 := win0_5.stage (cfg0.slots t 5)
abbrev hs5 (t : Fin cfg0.N) : (ms5 t).IsWhole := hstage0_5 ((cfg0.slots t 5).cast nbuf0_5)

end Cert.KernelIdeal.Body

end
-- ==== Proof.KernelIdealFirst.lean ====
/-
  The body at the first tile of a batch (`hi = 0`): the masked, shifted rows are stored as the context block and the tile's
  partial product overwrites the logits block; the other two guards are off.
-/
import proofs.«404583_j67568425500679_3_alg».proof.Proof.KernelIdealSteps

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the logits buffer (`LL`) and in the context buffer (`LC`), last store
    first, with the proof that from whole staging memrefs — the four inputs at their contents, the logits buffer at anything, the context buffer at
    anything — the body runs to a continuation that is handed the inputs as they were and each output buffer
    with those pieces written. -/
noncomputable def runFirst (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) :
    Σ' (LL : List (View.Piece (Elt F) S1x4094x128 .f32)), { LC : List (View.Piece (Elt F) S1x4094x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LL) ∗ (∃ f, arg7.view.loc (c : Thread nD τ) ↦[arg7.view.set]{fullShare} arg7.view.writes (Elt F) f LC)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Body

end
-- ==== Proof.KernelIdealMiddle.lean ====
/-
  The body at a middle tile of a batch (`hi = 1, 2`): the context block is stored as at every tile, and the tile's partial
  product is added to what the logits block holds from the tile before; the overwrite and the bias guards are off.
-/
import proofs.«404583_j67568425500679_3_alg».proof.Proof.KernelIdealFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the logits buffer (`LL`) and in the context buffer (`LC`), last store
    first, with the proof that from whole staging memrefs — the four inputs at their contents, the logits buffer at the running contents `acc`, the context buffer at
    anything — the body runs to a continuation that is handed the inputs as they were and each output buffer
    with those pieces written. -/
noncomputable def runMiddle (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) :
    Σ' (LL : List (View.Piece (Elt F) S1x4094x128 .f32)), { LC : List (View.Piece (Elt F) S1x4094x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare acc ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LL) ∗ (∃ f, arg7.view.loc (c : Thread nD τ) ↦[arg7.view.set]{fullShare} arg7.view.writes (Elt F) f LC)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Body

end
-- ==== Proof.KernelIdealLast.lean ====
/-
  The body at the last tile of a batch (`hi = 3`): the context block is stored, the tile's partial product is added to the
  logits block, and then the bias row, broadcast down the rows, is added to the block read back.
-/
import proofs.«404583_j67568425500679_3_alg».proof.Proof.KernelIdealMiddle

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the logits buffer (`LL`) and in the context buffer (`LC`), last store
    first, with the proof that from whole staging memrefs — the four inputs at their contents, the logits buffer at the running contents `acc`, the context buffer at
    anything — the body runs to a continuation that is handed the inputs as they were and each output buffer
    with those pieces written. -/
noncomputable def runLast (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) :
    Σ' (LL : List (View.Piece (Elt F) S1x4094x128 .f32)), { LC : List (View.Piece (Elt F) S1x4094x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare acc ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LL) ∗ (∃ f, arg7.view.loc (c : Thread nD τ) ↦[arg7.view.set]{fullShare} arg7.view.writes (Elt F) f LC)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Body

end
-- ==== Proof.KernelIdealFrame.lean ====
/-
  The frame of the kernel program. What the two output buffers hold after the body at a grid point: the context
  buffer holds the point's own masked rows; the logits buffer, resident over a batch's four tiles, holds the sum
  of the partial products of the tiles met so far in the batch (and, after the last tile, the bias row on top).
  The logits contents are therefore defined by recursion over the points, each later tile over what the tile
  before left; the block is written back only after a batch's last tile, so between two tiles of one batch the
  buffer is found as it was left. From this proof data: the body's obligation at every point (one of three runs,
  chosen by the tile's number), the run of the whole program, and the frame claim.
-/
import proofs.«404583_j67568425500679_3_alg».proof.Proof.KernelIdealLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards at a point, from the tile's number -/

theorem c1_of_first (t : Fin cfg0.N) (h : t.val % 4 = 0) : k0_cond1 (grid0.coords t) = 1#1 := (first_iff t).mpr h
theorem nc2_of_first (t : Fin cfg0.N) (h : t.val % 4 = 0) : ¬k0_cond2 (grid0.coords t) = 1#1 := fun h' => (later_iff t).mp h' h
theorem nc3_of_first (t : Fin cfg0.N) (h : t.val % 4 = 0) : ¬k0_cond3 (grid0.coords t) = 1#1 := fun h' => by
  have := (last_iff t).mp h'; omega
theorem nc1_of_later (t : Fin cfg0.N) (h : ¬t.val % 4 = 0) : ¬k0_cond1 (grid0.coords t) = 1#1 := fun h' => h ((first_iff t).mp h')
theorem c2_of_later (t : Fin cfg0.N) (h : ¬t.val % 4 = 0) : k0_cond2 (grid0.coords t) = 1#1 := (later_iff t).mpr h
theorem nc3_of_notlast (t : Fin cfg0.N) (h : ¬t.val % 4 = 3) : ¬k0_cond3 (grid0.coords t) = 1#1 := fun h' => h ((last_iff t).mp h')
theorem c3_of_last (t : Fin cfg0.N) (h : t.val % 4 = 3) : k0_cond3 (grid0.coords t) = 1#1 := (last_iff t).mpr h
theorem ne0_of_last (t : Fin cfg0.N) (h : t.val % 4 = 3) : ¬t.val % 4 = 0 := by omega

/-- At every grid point one of the first two guards holds, so the logits window is never idle. -/
theorem logits_live (i : grid0.Coords) : cfg0.idle 4 i = false := by
  show (!(k0_cond1 i == 1#1) && !(k0_cond2 i == 1#1) && !(k0_cond3 i == 1#1)) = false
  have key : ∀ j : Fin 4, (Scalar.cmpi .ne (Scalar.extui (Scalar.cmpi .eq (BitVec.ofNat 32 j.val) 0#32)) 0#32) = 1#1
      ∨ (Scalar.cmpi .ne (Scalar.extui (Scalar.cmpi .sgt (BitVec.ofNat 32 j.val) 0#32)) 0#32) = 1#1 := by decide
  have h : k0_cond1 i = 1#1 ∨ k0_cond2 i = 1#1 := key (i 1)
  rcases h with h | h <;> simp [h]

/-! ## What each kind of step leaves in the two output buffers -/

/-- The stores of a first step into the logits buffer tile its block, so they cover it. -/
theorem coverFirstL (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) (y : S1x4094x128.Idx) :
    ∃ pc ∈ (runFirst c i arg2 harg2 arg3 harg3 arg4 harg4 arg5 harg5 arg6 harg6 arg7 harg7 hc1 hc2 hc3 x0 x1 x2 x3).1, y ∈ pc.1.set :=
  View.cover_of_tiledL (runFirst c i arg2 harg2 arg3 harg3 arg4 harg4 arg5 harg5 arg6 harg6 arg7 harg7 hc1 hc2 hc3 x0 x1 x2 x3).1 S1x4094x128.size (by sl_kernel_rfl) y

/-- The store of a first step into the context buffer covers its block. -/
theorem coverFirstC (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) (y : S1x4094x256.Idx) :
    ∃ pc ∈ (runFirst c i arg2 harg2 arg3 harg3 arg4 harg4 arg5 harg5 arg6 harg6 arg7 harg7 hc1 hc2 hc3 x0 x1 x2 x3).2.1, y ∈ pc.1.set :=
  View.cover_of_tiledL (runFirst c i arg2 harg2 arg3 harg3 arg4 harg4 arg5 harg5 arg6 harg6 arg7 harg7 hc1 hc2 hc3 x0 x1 x2 x3).2.1 S1x4094x256.size (by sl_kernel_rfl) y

/-- What a first step leaves in the logits buffer: its pieces read back. -/
def logitsFirst (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) : Vec F S1x4094x128 .f32 :=
  VL.read (Elt F) (VL.writes (Elt F) VL.junk (runFirst c i arg2 harg2 arg3 harg3 arg4 harg4 arg5 harg5 arg6 harg6 arg7 harg7 hc1 hc2 hc3 x0 x1 x2 x3).1)

/-- What a first step leaves in the context buffer: its pieces read back. -/
def ctxFirst (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) : Vec F S1x4094x256 .f32 :=
  VC.read (Elt F) (VC.writes (Elt F) VC.junk (runFirst c i arg2 harg2 arg3 harg3 arg4 harg4 arg5 harg5 arg6 harg6 arg7 harg7 hc1 hc2 hc3 x0 x1 x2 x3).2.1)

/-- The stores of a middle step into the logits buffer tile its block, so they cover it. -/
theorem coverMiddleL (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) (y : S1x4094x128.Idx) :
    ∃ pc ∈ (runMiddle c i arg2 harg2 arg3 harg3 arg4 harg4 arg5 harg5 arg6 harg6 arg7 harg7 hc1 hc2 hc3 x0 x1 x2 x3 acc).1, y ∈ pc.1.set :=
  View.cover_of_tiledL (runMiddle c i arg2 harg2 arg3 harg3 arg4 harg4 arg5 harg5 arg6 harg6 arg7 harg7 hc1 hc2 hc3 x0 x1 x2 x3 acc).1 S1x4094x128.size (by sl_kernel_rfl) y

/-- The store of a middle step into the context buffer covers its block. -/
theorem coverMiddleC (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) (y : S1x4094x256.Idx) :
    ∃ pc ∈ (runMiddle c i arg2 harg2 arg3 harg3 arg4 harg4 arg5 harg5 arg6 harg6 arg7 harg7 hc1 hc2 hc3 x0 x1 x2 x3 acc).2.1, y ∈ pc.1.set :=
  View.cover_of_tiledL (runMiddle c i arg2 harg2 arg3 harg3 arg4 harg4 arg5 harg5 arg6 harg6 arg7 harg7 hc1 hc2 hc3 x0 x1 x2 x3 acc).2.1 S1x4094x256.size (by sl_kernel_rfl) y

/-- What a middle step leaves in the logits buffer: its pieces read back. -/
def logitsMiddle (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) : Vec F S1x4094x128 .f32 :=
  VL.read (Elt F) (VL.writes (Elt F) VL.junk (runMiddle c i arg2 harg2 arg3 harg3 arg4 harg4 arg5 harg5 arg6 harg6 arg7 harg7 hc1 hc2 hc3 x0 x1 x2 x3 acc).1)

/-- What a middle step leaves in the context buffer: its pieces read back. -/
def ctxMiddle (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) : Vec F S1x4094x256 .f32 :=
  VC.read (Elt F) (VC.writes (Elt F) VC.junk (runMiddle c i arg2 harg2 arg3 harg3 arg4 harg4 arg5 harg5 arg6 harg6 arg7 harg7 hc1 hc2 hc3 x0 x1 x2 x3 acc).2.1)

/-- The stores of a last step into the logits buffer tile its block, so they cover it. -/
theorem coverLastL (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) (y : S1x4094x128.Idx) :
    ∃ pc ∈ (runLast c i arg2 harg2 arg3 harg3 arg4 harg4 arg5 harg5 arg6 harg6 arg7 harg7 hc1 hc2 hc3 x0 x1 x2 x3 acc).1, y ∈ pc.1.set :=
  View.cover_of_tiledL (runLast c i arg2 harg2 arg3 harg3 arg4 harg4 arg5 harg5 arg6 harg6 arg7 harg7 hc1 hc2 hc3 x0 x1 x2 x3 acc).1 S1x4094x128.size (by sl_kernel_rfl) y

/-- The store of a last step into the context buffer covers its block. -/
theorem coverLastC (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) (y : S1x4094x256.Idx) :
    ∃ pc ∈ (runLast c i arg2 harg2 arg3 harg3 arg4 harg4 arg5 harg5 arg6 harg6 arg7 harg7 hc1 hc2 hc3 x0 x1 x2 x3 acc).2.1, y ∈ pc.1.set :=
  View.cover_of_tiledL (runLast c i arg2 harg2 arg3 harg3 arg4 harg4 arg5 harg5 arg6 harg6 arg7 harg7 hc1 hc2 hc3 x0 x1 x2 x3 acc).2.1 S1x4094x256.size (by sl_kernel_rfl) y

/-- What a last step leaves in the logits buffer: its pieces read back. -/
def logitsLast (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) : Vec F S1x4094x128 .f32 :=
  VL.read (Elt F) (VL.writes (Elt F) VL.junk (runLast c i arg2 harg2 arg3 harg3 arg4 harg4 arg5 harg5 arg6 harg6 arg7 harg7 hc1 hc2 hc3 x0 x1 x2 x3 acc).1)

/-- What a last step leaves in the context buffer: its pieces read back. -/
def ctxLast (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) : Vec F S1x4094x256 .f32 :=
  VC.read (Elt F) (VC.writes (Elt F) VC.junk (runLast c i arg2 harg2 arg3 harg3 arg4 harg4 arg5 harg5 arg6 harg6 arg7 harg7 hc1 hc2 hc3 x0 x1 x2 x3 acc).2.1)

/-! ## The logits buffer point by point -/

/-- What the logits buffer holds after the body at position `n`: at a batch's first tile the tile's partial product;
    at a later tile the step's result over what the tile before left (the buffer is not written back between). -/
def logitsAt (c : Dev nD) : (n : ℕ) → n < cfg0.N → Vec F S1x4094x128 .f32
  | 0, hn => logitsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (c1_of_first ⟨0, hn⟩ (Nat.zero_mod _)) (nc2_of_first ⟨0, hn⟩ (Nat.zero_mod _)) (nc3_of_first ⟨0, hn⟩ (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      logitsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (c1_of_first ⟨n + 1, hn⟩ h0) (nc2_of_first ⟨n + 1, hn⟩ h0) (nc3_of_first ⟨n + 1, hn⟩ h0) (iblk m c 0 ⟨n + 1, hn⟩) (iblk m c 1 ⟨n + 1, hn⟩) (iblk m c 2 ⟨n + 1, hn⟩) (iblk m c 3 ⟨n + 1, hn⟩)
    else if h3 : (n + 1) % 4 = 3 then
      logitsLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (nc1_of_later ⟨n + 1, hn⟩ (ne0_of_last ⟨n + 1, hn⟩ h3)) (c2_of_later ⟨n + 1, hn⟩ (ne0_of_last ⟨n + 1, hn⟩ h3)) (c3_of_last ⟨n + 1, hn⟩ h3) (iblk m c 0 ⟨n + 1, hn⟩) (iblk m c 1 ⟨n + 1, hn⟩) (iblk m c 2 ⟨n + 1, hn⟩) (iblk m c 3 ⟨n + 1, hn⟩) (logitsAt c n (Nat.lt_of_succ_lt hn))
    else
      logitsMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (nc1_of_later ⟨n + 1, hn⟩ h0) (c2_of_later ⟨n + 1, hn⟩ h0) (nc3_of_notlast ⟨n + 1, hn⟩ h3) (iblk m c 0 ⟨n + 1, hn⟩) (iblk m c 1 ⟨n + 1, hn⟩) (iblk m c 2 ⟨n + 1, hn⟩) (iblk m c 3 ⟨n + 1, hn⟩) (logitsAt c n (Nat.lt_of_succ_lt hn))

theorem logitsAt_first (c : Dev nD) (t : Fin cfg0.N) (h0 : t.val % 4 = 0) :
    logitsAt m c t.val t.isLt = logitsFirst c (grid0.coords t) (ms0 t) (hs0 t) (ms1 t) (hs1 t) (ms2 t) (hs2 t) (ms3 t) (hs3 t) (ms4 t) (hs4 t) (ms5 t) (hs5 t) (c1_of_first t h0) (nc2_of_first t h0) (nc3_of_first t h0) (iblk m c 0 t) (iblk m c 1 t) (iblk m c 2 t) (iblk m c 3 t) := by
  obtain ⟨n, hn⟩ := t
  cases n with
  | zero => exact rfl
  | succ n => exact (dif_pos h0).trans rfl

theorem logitsAt_middle (c : Dev nD) (t : Fin cfg0.N) (h0 : ¬t.val % 4 = 0) (h3 : ¬t.val % 4 = 3) :
    logitsAt m c t.val t.isLt = logitsMiddle c (grid0.coords t) (ms0 t) (hs0 t) (ms1 t) (hs1 t) (ms2 t) (hs2 t) (ms3 t) (hs3 t) (ms4 t) (hs4 t) (ms5 t) (hs5 t) (nc1_of_later t h0) (c2_of_later t h0) (nc3_of_notlast t h3) (iblk m c 0 t) (iblk m c 1 t) (iblk m c 2 t) (iblk m c 3 t) (logitsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem logitsAt_last (c : Dev nD) (t : Fin cfg0.N) (h3 : t.val % 4 = 3) :
    logitsAt m c t.val t.isLt = logitsLast c (grid0.coords t) (ms0 t) (hs0 t) (ms1 t) (hs1 t) (ms2 t) (hs2 t) (ms3 t) (hs3 t) (ms4 t) (hs4 t) (ms5 t) (hs5 t) (nc1_of_later t (ne0_of_last t h3)) (c2_of_later t (ne0_of_last t h3)) (c3_of_last t h3) (iblk m c 0 t) (iblk m c 1 t) (iblk m c 2 t) (iblk m c 3 t) (logitsAt m c (t.val - 1) (Nat.lt_of_le_of_lt (Nat.sub_le _ _) t.isLt)) := by
  obtain ⟨n, hn⟩ := t
  cases n with
  | zero => exact absurd h3 (by show ¬(0 % 4 = 3); decide)
  | succ n => exact (dif_neg (ne0_of_last ⟨n + 1, hn⟩ h3)).trans ((dif_pos h3).trans rfl)

/-- What the context buffer holds after the body at point `t`: the step's own store. -/
def ctxAt (c : Dev nD) (t : Fin cfg0.N) : Vec F S1x4094x256 .f32 :=
  if h0 : t.val % 4 = 0 then
    ctxFirst c (grid0.coords t) (ms0 t) (hs0 t) (ms1 t) (hs1 t) (ms2 t) (hs2 t) (ms3 t) (hs3 t) (ms4 t) (hs4 t) (ms5 t) (hs5 t) (c1_of_first t h0) (nc2_of_first t h0) (nc3_of_first t h0) (iblk m c 0 t) (iblk m c 1 t) (iblk m c 2 t) (iblk m c 3 t)
  else if h3 : t.val % 4 = 3 then
    ctxLast c (grid0.coords t) (ms0 t) (hs0 t) (ms1 t) (hs1 t) (ms2 t) (hs2 t) (ms3 t) (hs3 t) (ms4 t) (hs4 t) (ms5 t) (hs5 t) (nc1_of_later t (ne0_of_last t h3)) (c2_of_later t (ne0_of_last t h3)) (c3_of_last t h3) (iblk m c 0 t) (iblk m c 1 t) (iblk m c 2 t) (iblk m c 3 t) (logitsAt m c (t.val - 1) (Nat.lt_of_le_of_lt (Nat.sub_le _ _) t.isLt))
  else
    ctxMiddle c (grid0.coords t) (ms0 t) (hs0 t) (ms1 t) (hs1 t) (ms2 t) (hs2 t) (ms3 t) (hs3 t) (ms4 t) (hs4 t) (ms5 t) (hs5 t) (nc1_of_later t h0) (c2_of_later t h0) (nc3_of_notlast t h3) (iblk m c 0 t) (iblk m c 1 t) (iblk m c 2 t) (iblk m c 3 t) (logitsAt m c (t.val - 1) (Nat.lt_of_le_of_lt (Nat.sub_le _ _) t.isLt))

theorem ctxAt_first (c : Dev nD) (t : Fin cfg0.N) (h0 : t.val % 4 = 0) :
    ctxAt m c t = ctxFirst c (grid0.coords t) (ms0 t) (hs0 t) (ms1 t) (hs1 t) (ms2 t) (hs2 t) (ms3 t) (hs3 t) (ms4 t) (hs4 t) (ms5 t) (hs5 t) (c1_of_first t h0) (nc2_of_first t h0) (nc3_of_first t h0) (iblk m c 0 t) (iblk m c 1 t) (iblk m c 2 t) (iblk m c 3 t) := dif_pos h0
theorem ctxAt_middle (c : Dev nD) (t : Fin cfg0.N) (h0 : ¬t.val % 4 = 0) (h3 : ¬t.val % 4 = 3) :
    ctxAt m c t = ctxMiddle c (grid0.coords t) (ms0 t) (hs0 t) (ms1 t) (hs1 t) (ms2 t) (hs2 t) (ms3 t) (hs3 t) (ms4 t) (hs4 t) (ms5 t) (hs5 t) (nc1_of_later t h0) (c2_of_later t h0) (nc3_of_notlast t h3) (iblk m c 0 t) (iblk m c 1 t) (iblk m c 2 t) (iblk m c 3 t) (logitsAt m c (t.val - 1) (Nat.lt_of_le_of_lt (Nat.sub_le _ _) t.isLt)) := (dif_neg h0).trans (dif_neg h3)
theorem ctxAt_last (c : Dev nD) (t : Fin cfg0.N) (h3 : t.val % 4 = 3) :
    ctxAt m c t = ctxLast c (grid0.coords t) (ms0 t) (hs0 t) (ms1 t) (hs1 t) (ms2 t) (hs2 t) (ms3 t) (hs3 t) (ms4 t) (hs4 t) (ms5 t) (hs5 t) (nc1_of_later t (ne0_of_last t h3)) (c2_of_later t (ne0_of_last t h3)) (c3_of_last t h3) (iblk m c 0 t) (iblk m c 1 t) (iblk m c 2 t) (iblk m c 3 t) (logitsAt m c (t.val - 1) (Nat.lt_of_le_of_lt (Nat.sub_le _ _) t.isLt)) := (dif_neg (ne0_of_last t h3)).trans (dif_pos h3)

/-! ## The pipeline's proof data -/

/-- The arrays as the region finds them; after the body at point `t` each input's buffer at its block, the logits
    buffer at `logitsAt`, the context buffer at `ctxAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => logitsAt m c t.val t.isLt
    | ⟨5, _⟩ => ctxAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = logitsAt m c t.val t.isLt := by dsimp only [dats]
theorem after5 (c : Dev nD) (t : Fin cfg0.N) : (dats m 0 c).after 5 t = ctxAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later tile of a batch the logits buffer holds what the body left at the tile before: the point is not the
    first, the block was not written back between (it is only after a batch's last tile), and the window is never
    idle and never clipped. -/
theorem before4_later (c : Dev nD) (t : Fin cfg0.N) (h0 : ¬t.val % 4 = 0) (d) :
    (dats m 0 c).before 4 t d = logitsAt m c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    logits_live (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the tile's number says which step the point is; at a
    later tile the logits buffer holds what the tile before left; so that step's run applies, and what it leaves is
    what the proof data names. The invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 4 = 0
  ·
    rw [logitsAt_first m c t h0, ctxAt_first m c t h0]
    unfold logitsFirst ctxFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ (c1_of_first t h0) (nc2_of_first t h0) (nc3_of_first t h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverFirstL c _ _ _ _ _ _ _ _ _ _ _ _ _ _ _ _ _ _ _ _)
    unfold owns; iexists _; isplitr
    swap; · iexact H5
    ipureintro; exact View.read_writes_of_cover _ _ _ _ _ (coverFirstC c _ _ _ _ _ _ _ _ _ _ _ _ _ _ _ _ _ _ _ _)
  · simp only [before4_later m c t h0]
    by_cases h3 : t.val % 4 = 3
    ·
      rw [logitsAt_last m c t h3, ctxAt_last m c t h3]
      unfold logitsLast ctxLast
      iintro ⟨HΦ, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ (nc1_of_later t (ne0_of_last t h3)) (c2_of_later t (ne0_of_last t h3)) (c3_of_last t h3) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverLastL c _ _ _ _ _ _ _ _ _ _ _ _ _ _ _ _ _ _ _ _ _)
      unfold owns; iexists _; isplitr
      swap; · iexact H5
      ipureintro; exact View.read_writes_of_cover _ _ _ _ _ (coverLastC c _ _ _ _ _ _ _ _ _ _ _ _ _ _ _ _ _ _ _ _ _)
    ·
      rw [logitsAt_middle m c t h0 h3, ctxAt_middle m c t h0 h3]
      unfold logitsMiddle ctxMiddle
      iintro ⟨HΦ, Ho, ⟨%d0, H0⟩, ⟨%d1, H1⟩, ⟨%d2, H2⟩, ⟨%d3, H3⟩, ⟨%d4, H4⟩, ⟨%d5, H5⟩⟩
      iapply ((runMiddle c (grid0.coords t) _ _ _ _ _ _ _ _ _ _ _ _ (nc1_of_later t h0) (c2_of_later t h0) (nc3_of_notlast t h3) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverMiddleL c _ _ _ _ _ _ _ _ _ _ _ _ _ _ _ _ _ _ _ _ _)
      unfold owns; iexists _; isplitr
      swap; · iexact H5
      ipureintro; exact View.read_writes_of_cover _ _ _ _ _ (coverMiddleC c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  beta_reduce
  rw [logits_live (cfg0.grid.coords t)]
  exact sound_body m c t

/-! ## The run and the frame -/

set_option maxHeartbeats 1600000 in
set_option backward.isDefEq.respectTransparency.types false in
/-- From any memory with zero counters every weakly fair execution of the program terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KernelIdealPieces.lean ====
/-
  What each kind of step leaves in the two output buffers, as the body's own arithmetic of what it loaded. The body
  loads rows 1 … 4094 of the hidden-state block (the shift by one), the whole mask column, the tile's 256 rows of the
  transposed projection, and — at the later tiles — the logits block as the tile before left it; its stores cover
  their buffers whole, so what a buffer holds afterwards is the last store's payload:
  the context buffer always the masked rows; the logits buffer the partial product (first tile), the block read plus
  the partial product (middle tiles), and that plus the bias row (last tile, whose second store reads the first back).
-/
import proofs.«404583_j67568425500679_3_alg».proof.Proof.KernelIdealFrame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz1 : (![0] : Fin 1 → Nat) = fun _ => 0 := funext fun a => by fin_cases a <;> rfl

/-- Rows 1 … 4094 of a hidden-state block: what the body loads of it. -/
abbrev rows (x0 : Vec F S1x4096x256 .f32) : Vec F S1x4094x256 .f32 :=
  View.ld x0 (Rect.unit (s := S1x4096x256) ![0, 1, 0] S1x4094x256.size inb_S1x4096x256_S1x4094x256_0_1_0)

/-- The tile's 256 rows of the transposed projection: what the body loads of it at grid coordinates `i`. -/
abbrev wtile (i : grid0.Coords) (x2 : Vec F S1024x128 .bf16) : Vec F S256x128 .bf16 :=
  View.ld x2 (Rect.unit (s := S1024x128) (k0_off1 i) S256x128.size (k0_off1_inb i))

theorem ctxFirst_eq (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) :
    ctxFirst c i arg2 harg2 arg3 harg3 arg4 harg4 arg5 harg5 arg6 harg6 arg7 harg7 hc1 hc2 hc3 x0 x1 x2 x3 = k0_pay2 (rows x0) x1 := by
  unfold ctxFirst
  rw [View.read_writes_eq_canon _ _ _ (coverFirstC c i arg2 harg2 arg3 harg3 arg4 harg4 arg5 harg5 arg6 harg6 arg7 harg7 hc1 hc2 hc3 x0 x1 x2 x3)]
  unfold runFirst
  dsimp only
  sl_unfold_words
  rw [View.canon_unit_zero hz3]
  simp only [View.readAt_eq_ld, harg2.read_unread, harg3.read_unread, harg4.read_unread, harg5.read_unread, harg6.read_unread, View.ld_unit_zero (S := S1x4094x1) hz3, View.ld_unit_zero (S := S1x4094x128) hz3, View.ld_unit_zero (S := S128) hz1]

theorem ctxMiddle_eq (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) :
    ctxMiddle c i arg2 harg2 arg3 harg3 arg4 harg4 arg5 harg5 arg6 harg6 arg7 harg7 hc1 hc2 hc3 x0 x1 x2 x3 acc = k0_pay2 (rows x0) x1 := by
  unfold ctxMiddle
  rw [View.read_writes_eq_canon _ _ _ (coverMiddleC c i arg2 harg2 arg3 harg3 arg4 harg4 arg5 harg5 arg6 harg6 arg7 harg7 hc1 hc2 hc3 x0 x1 x2 x3 acc)]
  unfold runMiddle
  dsimp only
  sl_unfold_words
  rw [View.canon_unit_zero hz3]
  simp only [View.readAt_eq_ld, harg2.read_unread, harg3.read_unread, harg4.read_unread, harg5.read_unread, harg6.read_unread, View.ld_unit_zero (S := S1x4094x1) hz3, View.ld_unit_zero (S := S1x4094x128) hz3, View.ld_unit_zero (S := S128) hz1]

theorem ctxLast_eq (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) :
    ctxLast c i arg2 harg2 arg3 harg3 arg4 harg4 arg5 harg5 arg6 harg6 arg7 harg7 hc1 hc2 hc3 x0 x1 x2 x3 acc = k0_pay2 (rows x0) x1 := by
  unfold ctxLast
  rw [View.read_writes_eq_canon _ _ _ (coverLastC c i arg2 harg2 arg3 harg3 arg4 harg4 arg5 harg5 arg6 harg6 arg7 harg7 hc1 hc2 hc3 x0 x1 x2 x3 acc)]
  unfold runLast
  dsimp only
  sl_unfold_words
  rw [View.canon_unit_zero hz3]
  simp only [View.readAt_eq_ld, harg2.read_unread, harg3.read_unread, harg4.read_unread, harg5.read_unread, harg6.read_unread, View.ld_unit_zero (S := S1x4094x1) hz3, View.ld_unit_zero (S := S1x4094x128) hz3, View.ld_unit_zero (S := S128) hz1]

theorem logitsFirst_eq (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : k0_cond1 i = 1#1) (hc2 : ¬k0_cond2 i = 1#1) (hc3 : ¬k0_cond3 i = 1#1)
    (x0 : Vec F S1x4096x256 .f32) (x1 : Vec F S1x4094x1 .f32) (x2 : Vec F S1024x128 .bf16) (x3 : Vec F S128 .f32) :
    logitsFirst c i arg2 harg2 arg3 harg3 arg4 harg4 arg5 harg5 arg6 harg6 arg7 harg7 hc1 hc2 hc3 x0 x1 x2 x3 = k0_pay4 (rows x0) x1 (wtile i x2) := by
  unfold logitsFirst
  rw [View.read_writes_eq_canon _ _ _ (coverFirstL c i arg2 harg2 arg3 harg3 arg4 harg4 arg5 harg5 arg6 harg6 arg7 harg7 hc1 hc2 hc3 x0 x1 x2 x3)]
  unfold runFirst
  dsimp only
  sl_unfold_words
  rw [View.canon_unit_zero hz3]
  simp only [View.readAt_eq_ld, harg2.read_unread, harg3.read_unread, harg4.read_unread, harg5.read_unread, harg6.read_unread, View.ld_unit_zero (S := S1x4094x1) hz3, View.ld_unit_zero (S := S1x4094x128) hz3, View.ld_unit_zero (S := S128) hz1]
  rfl

theorem logitsMiddle_eq (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : ¬k0_cond3 i = 1#1)
    (x0 : Vec F S1x4096x256 .f32) (x1 : Vec F S1x4094x1 .f32) (x2 : Vec F S1024x128 .bf16) (x3 : Vec F S128 .f32) (acc : Vec F S1x4094x128 .f32) :
    logitsMiddle c i arg2 harg2 arg3 harg3 arg4 harg4 arg5 harg5 arg6 harg6 arg7 harg7 hc1 hc2 hc3 x0 x1 x2 x3 acc = k0_pay5 (rows x0) x1 (wtile i x2) acc := by
  unfold logitsMiddle
  rw [View.read_writes_eq_canon _ _ _ (coverMiddleL c i arg2 harg2 arg3 harg3 arg4 harg4 arg5 harg5 arg6 harg6 arg7 harg7 hc1 hc2 hc3 x0 x1 x2 x3 acc)]
  unfold runMiddle
  dsimp only
  sl_unfold_words
  rw [View.canon_unit_zero hz3]
  simp only [View.readAt_eq_ld, harg2.read_unread, harg3.read_unread, harg4.read_unread, harg5.read_unread, harg6.read_unread, View.ld_unit_zero (S := S1x4094x1) hz3, View.ld_unit_zero (S := S1x4094x128) hz3, View.ld_unit_zero (S := S128) hz1]
  rfl

theorem logitsLast_eq (c : Dev nD) (i : grid0.Coords) (arg2 : Memref sig .tc .vmem S1x4096x256 .f32) (harg2 : arg2.IsWhole) (arg3 : Memref sig .tc .vmem S1x4094x1 .f32) (harg3 : arg3.IsWhole) (arg4 : Memref sig .tc .vmem S1024x128 .bf16) (harg4 : arg4.IsWhole) (arg5 : Memref sig .tc .vmem S128 .f32) (harg5 : arg5.IsWhole) (arg6 : Memref sig .tc .vmem S1x4094x128 .f32) (harg6 : arg6.IsWhole) (arg7 : Memref sig .tc .vmem S1x4094x256 .f32) (harg7 : arg7.IsWhole) (hc1 : ¬k0_cond1 i = 1#1) (hc2 : k0_cond2 i = 1#1) (hc3 : k0_cond3 i = 1#1)
    (x0 : Vec F S1x4096x256 .f32) (x1 : Vec F S1x4094x1 .f32) (x2 : Vec F S1024x128 .bf16) (x3 : Vec F S128 .f32) (acc : Vec F S1x4094x128 .f32) :
    logitsLast c i arg2 harg2 arg3 harg3 arg4 harg4 arg5 harg5 arg6 harg6 arg7 harg7 hc1 hc2 hc3 x0 x1 x2 x3 acc = k0_pay6 (k0_pay5 (rows x0) x1 (wtile i x2) acc) x3 := by
  unfold logitsLast
  rw [View.read_writes_eq_canon _ _ _ (coverLastL c i arg2 harg2 arg3 harg3 arg4 harg4 arg5 harg5 arg6 harg6 arg7 harg7 hc1 hc2 hc3 x0 x1 x2 x3 acc)]
  unfold runLast
  dsimp only
  sl_unfold_words
  rw [View.canon_cons_unit_zero (S := S1x4094x128) hz3, View.readCov_unit_zero (S := S1x4094x128) _ hz3]
  simp only [View.readAt_eq_ld, harg2.read_unread, harg3.read_unread, harg4.read_unread, harg5.read_unread, harg6.read_unread, View.ld_unit_zero (S := S1x4094x1) hz3, View.ld_unit_zero (S := S1x4094x128) hz3, View.ld_unit_zero (S := S128) hz1]
  rfl

end Cert.KernelIdeal.Body

end
-- ==== Proof.Spec.lean ====
/-
  What both programs compute, written once as functions of the argument arrays, index by index over the extended
  reals. `x` is the hidden-state array [8, 4096, 1024], `mf` the validity mask [8, 4094] already converted to a float
  (1 where the trimmed position is inside the sequence, 0 elsewhere), `W` the projection [128, 1024], `bias` [128].

    context[b, s, h] = x[b, s + 1, h] · mf[b, s]
    logits[b, s, l]  = (Σ_{h < 1024} context[b, s, h] · W[l, h]) + bias[l]

  The kernel walks the hidden axis in four tiles of 256 columns and adds the four partial products one after the
  other; `logitE_tiles` regroups the one sum over 1024 columns into that left-nested sum of four. Only that addition
  of extended reals is commutative and associative is used, so no finiteness is needed.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

abbrev SX : Shape := ⟨3, ![8, 4096, 1024]⟩
abbrev SM : Shape := ⟨2, ![8, 4094]⟩
abbrev SW : Shape := ⟨2, ![128, 1024]⟩
abbrev SB : Shape := ⟨1, ![128]⟩
abbrev SC : Shape := ⟨3, ![8, 4094, 1024]⟩
abbrev SL : Shape := ⟨3, ![8, 4094, 128]⟩

/-- Row `s` of the trimmed sequence is row `s + 1` of the input. -/
def shift (s : Fin 4094) : Fin 4096 := ⟨s.val + 1, by omega⟩

/-- Column `k` of tile `j` of the hidden axis. -/
def tile (j : Fin 4) (k : Fin 256) : Fin 1024 := ⟨256 * j.val + k.val, by omega⟩

/-- One entry of the context: the shifted row, masked. -/
def ctxE (x : SX.Idx → EReal) (mf : SM.Idx → EReal) (b : Fin 8) (s : Fin 4094) (h : Fin 1024) : EReal :=
  x (ix3 b (shift s) h) * mf (ix2 b s)

/-- Tile `j`'s partial product for one entry of the logits. -/
def partialE (x : SX.Idx → EReal) (mf : SM.Idx → EReal) (W : SW.Idx → EReal) (b : Fin 8) (s : Fin 4094) (l : Fin 128) (j : Fin 4) : EReal :=
  ∑ k : Fin 256, ctxE x mf b s (tile j k) * W (ix2 l (tile j k))

/-- One entry of the logits. -/
def logitE (x : SX.Idx → EReal) (mf : SM.Idx → EReal) (W : SW.Idx → EReal) (bias : SB.Idx → EReal) (b : Fin 8) (s : Fin 4094) (l : Fin 128) : EReal :=
  (∑ h : Fin 1024, ctxE x mf b s h * W (ix2 l h)) + bias (ix1 l)

/-- The context array. -/
def context (x : SX.Idx → EReal) (mf : SM.Idx → EReal) : SC.Idx → EReal :=
  fun i => ctxE x mf ⟨(i 0).val, (i 0).isLt⟩ ⟨(i 1).val, (i 1).isLt⟩ ⟨(i 2).val, (i 2).isLt⟩

/-- The logits array. -/
def logits (x : SX.Idx → EReal) (mf : SM.Idx → EReal) (W : SW.Idx → EReal) (bias : SB.Idx → EReal) : SL.Idx → EReal :=
  fun i => logitE x mf W bias ⟨(i 0).val, (i 0).isLt⟩ ⟨(i 1).val, (i 1).isLt⟩ ⟨(i 2).val, (i 2).isLt⟩

/-- A sum over 1024 columns is the left-nested sum of the sums over its four tiles of 256. -/
theorem sum_tiles (f : Fin 1024 → EReal) :
    ∑ h : Fin 1024, f h
      = ((∑ k : Fin 256, f (tile 0 k) + ∑ k : Fin 256, f (tile 1 k)) + ∑ k : Fin 256, f (tile 2 k)) + ∑ k : Fin 256, f (tile 3 k) := by
  have e : ∀ (g : Fin (256 + 256 + 256 + 256) → EReal), ∑ h, g h =
      ((∑ k : Fin 256, g (Fin.castAdd 256 (Fin.castAdd 256 (Fin.castAdd 256 k)))
          + ∑ k : Fin 256, g (Fin.castAdd 256 (Fin.castAdd 256 (Fin.natAdd 256 k))))
        + ∑ k : Fin 256, g (Fin.castAdd 256 (Fin.natAdd (256 + 256) k))) + ∑ k : Fin 256, g (Fin.natAdd (256 + 256 + 256) k) := by
    intro g
    rw [Fin.sum_univ_add, Fin.sum_univ_add, Fin.sum_univ_add]
  have t0 : ∀ k : Fin 256, (Fin.castAdd 256 (Fin.castAdd 256 (Fin.castAdd 256 k)) : Fin 1024) = tile 0 k :=
    fun k => Fin.ext (by simp [tile])
  have t1 : ∀ k : Fin 256, (Fin.castAdd 256 (Fin.castAdd 256 (Fin.natAdd 256 k)) : Fin 1024) = tile 1 k :=
    fun k => Fin.ext (by simp [tile] <;> omega)
  have t2 : ∀ k : Fin 256, (Fin.castAdd 256 (Fin.natAdd (256 + 256) k) : Fin 1024) = tile 2 k :=
    fun k => Fin.ext (by simp [tile] <;> omega)
  have t3 : ∀ k : Fin 256, (Fin.natAdd (256 + 256 + 256) k : Fin 1024) = tile 3 k :=
    fun k => Fin.ext (by simp [tile] <;> omega)
  rw [e f]
  simp only [t0, t1, t2, t3]

/-- An entry of the logits as the four tiles' partial products added left to right, then the bias. -/
theorem logitE_tiles (x : SX.Idx → EReal) (mf : SM.Idx → EReal) (W : SW.Idx → EReal) (bias : SB.Idx → EReal) (b : Fin 8) (s : Fin 4094) (l : Fin 128) :
    logitE x mf W bias b s l
      = (((partialE x mf W b s l 0 + partialE x mf W b s l 1) + partialE x mf W b s l 2) + partialE x mf W b s l 3) + bias (ix1 l) := by
  unfold logitE partialE
  rw [sum_tiles]

end Cert.Spec

end
-- ==== Proof.KernelIdealBlocks.lean ====
/-
  Where the body's loads land in the arrays. Point `t` of the grid works on batch `t / 4` and on tile `t mod 4` of the
  hidden axis. Its hidden-state block is rows 0 … 4095 of that batch at the tile's 256 columns, its mask block the
  batch's mask column, the projection and the bias are staged whole. The body loads rows 1 … 4094 of the hidden-state
  block (so row `s` of what it loads is row `s + 1` of the array) and the tile's 256 rows of the transposed projection.
  The mask column and the transposed projection are written by host operations before the region: the first is the
  comparison "position < length − 2" converted to a float and given a unit axis, the second the projection with its
  format narrowed and its axes swapped.
-/
import proofs.«404583_j67568425500679_3_alg».proof.Proof.KernelIdealPieces
import proofs.«404583_j67568425500679_3_alg».proof.Proof.Spec
import Idealize.ShloMosaic.Lib.ValueIdx
import Idealize.ShloMosaic.Lib.ValueLayout
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The arrays and the blocks, by their literal types -/

/-- The hidden-state array as the region finds it. -/
abbrev hid (c : Dev nD) : Vec F S8x4096x1024 .f32 := V m c main_arg0
/-- The mask column as the region finds it. -/
abbrev mcol (c : Dev nD) : Vec F S8x4094x1 .f32 := V m c main_v10
/-- The transposed projection as the region finds it. -/
abbrev wT (c : Dev nD) : Vec F S1024x128 .bf16 := V m c main_v12
/-- The bias as the region finds it. -/
abbrev brow (c : Dev nD) : Vec F S128 .f32 := V m c main_arg3
/-- The four input blocks of point `t`. -/
abbrev xblk (c : Dev nD) (t : Fin cfg0.N) : Vec F S1x4096x256 .f32 := iblk m c 0 t
abbrev mblk (c : Dev nD) (t : Fin cfg0.N) : Vec F S1x4094x1 .f32 := iblk m c 1 t
abbrev wblk (c : Dev nD) (t : Fin cfg0.N) : Vec F S1024x128 .bf16 := iblk m c 2 t
abbrev bblk (c : Dev nD) (t : Fin cfg0.N) : Vec F S128 .f32 := iblk m c 3 t

/-! ## The grid -/

/-- The batch point `t` works on. -/
def batchOf (t : Fin cfg0.N) : Fin 8 := ⟨t.val / 4, by have h : t.val < 32 := lt_of_lt_of_eq t.isLt (show cfg0.N = 32 from N_0); omega⟩
/-- The tile of the hidden axis point `t` works on. -/
def tileOf (t : Fin cfg0.N) : Fin 4 := ⟨t.val % 4, Nat.mod_lt _ (by decide)⟩

/-- The printed index maps and the second grid coordinate, decided over the grid. -/
theorem grid_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 4 ∧ win0_4.index t (1 : Fin 3) = 0 ∧ win0_4.index t (2 : Fin 3) = 0
    ∧ win0_5.index t (0 : Fin 3) = t.val / 4 ∧ win0_5.index t (1 : Fin 3) = 0 ∧ win0_5.index t (2 : Fin 3) = t.val % 4
    ∧ ((grid0.coords t) 1).val = t.val % 4 :=
  (by decide +kernel : ∀ t : Fin grid0.N, _)

/-! ## The blocks read in the arrays -/

theorem xblk_apply (c : Dev nD) (t : Fin cfg0.N) (r : Fin 4096) (k : Fin 256) :
    xblk m c t (ix3 (0 : Fin 1) r k) = hid m c (ix3 (batchOf t) r (Cert.Spec.tile (tileOf t) k)) := by
  have g := grid_facts t
  show V m c main_arg0 (((cfg0.win 0).blk t).view.emb (ix3 (0 : Fin 1) r k)) = V m c main_arg0 _
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 4096 + 1 * r.val = r.val; omega
  | ⟨2, _⟩ => show win0_0.index t (2 : Fin 3) * 256 + 1 * k.val = 256 * (t.val % 4) + k.val; omega

theorem mblk_apply (c : Dev nD) (t : Fin cfg0.N) (s : Fin 4094) :
    mblk m c t (ix3 (0 : Fin 1) s (0 : Fin 1)) = mcol m c (ix3 (batchOf t) s (0 : Fin 1)) := by
  have g := grid_facts t
  show V m c main_v10 (((cfg0.win 1).blk t).view.emb (ix3 (0 : Fin 1) s (0 : Fin 1))) = V m c main_v10 _
  refine congrArg (V m c main_v10) (funext fun a => Fin.ext ?_)
  match a with
  | ⟨0, _⟩ => show win0_1.index t (0 : Fin 3) * 1 + 1 * 0 = t.val / 4; omega
  | ⟨1, _⟩ => show win0_1.index t (1 : Fin 3) * 4094 + 1 * s.val = s.val; omega
  | ⟨2, _⟩ => show win0_1.index t (2 : Fin 3) * 1 + 1 * 0 = 0; omega

theorem wblk_apply (c : Dev nD) (t : Fin cfg0.N) (r : Fin 1024) (l : Fin 128) :
    wblk m c t (ix2 r l) = wT m c (ix2 r l) := by
  have g := grid_facts t
  show V m c main_v12 (((cfg0.win 2).blk t).view.emb (ix2 r l)) = V m c main_v12 _
  refine congrArg (V m c main_v12) (funext fun a => Fin.ext ?_)
  match a with
  | ⟨0, _⟩ => show win0_2.index t (0 : Fin 2) * 1024 + 1 * r.val = r.val; omega
  | ⟨1, _⟩ => show win0_2.index t (1 : Fin 2) * 128 + 1 * l.val = l.val; omega

theorem bblk_apply (c : Dev nD) (t : Fin cfg0.N) (l : Fin 128) :
    bblk m c t (ix1 l) = brow m c (ix1 l) := by
  have g := grid_facts t
  show V m c main_arg3 (((cfg0.win 3).blk t).view.emb (ix1 l)) = V m c main_arg3 _
  refine congrArg (V m c main_arg3) (funext fun a => Fin.ext ?_)
  match a with
  | ⟨0, _⟩ => show win0_3.index t (0 : Fin 1) * 128 + 1 * l.val = l.val; omega

/-! ## The two loads at an offset -/

/-- Row `s` of what the body loads of a hidden-state block is row `s + 1` of the block. -/
theorem rows_apply (x0 : Vec F S1x4096x256 .f32) (s : Fin 4094) (k : Fin 256) :
    rows x0 (ix3 (0 : Fin 1) s k) = x0 (ix3 (0 : Fin 1) (Cert.Spec.shift s) k) := by
  show x0 _ = x0 _
  refine congrArg x0 (funext fun a => Fin.ext ?_)
  match a with
  | ⟨0, _⟩ => show 0 + 1 * 0 = 0; omega
  | ⟨1, _⟩ => show 1 + 1 * s.val = s.val + 1; omega
  | ⟨2, _⟩ => show 0 + 1 * k.val = k.val; omega

/-- Row `k` of what the body loads of the transposed projection at point `t` is row `256 · (t mod 4) + k` of it. -/
theorem wtile_apply (t : Fin cfg0.N) (x2 : Vec F S1024x128 .bf16) (k : Fin 256) (l : Fin 128) :
    wtile (grid0.coords t) x2 (ix2 k l) = x2 (ix2 (Cert.Spec.tile (tileOf t) k) l) := by
  have g := grid_facts t
  have ho : k0_off1 (grid0.coords t) = ![256 * ((grid0.coords t) 1).val, 0] := k0_off1_eq (grid0.coords t)
  show x2 _ = x2 _
  refine congrArg x2 (funext fun a => Fin.ext ?_)
  match a with
  | ⟨0, _⟩ =>
    show k0_off1 (grid0.coords t) 0 + 1 * k.val = 256 * (t.val % 4) + k.val
    rw [ho]; show 256 * ((grid0.coords t) 1).val + 1 * k.val = _; omega
  | ⟨1, _⟩ =>
    show k0_off1 (grid0.coords t) 1 + 1 * l.val = l.val
    rw [ho]; show 0 + 1 * l.val = _; omega

/-! ## What the host operations before the region wrote -/

/-- The validity comparison "position < length − 2" of the mask argument, one bit per trimmed position. -/
def validBits (a1 : (⟨S8x4096, .i32⟩ : BufTy).Contents (Elt F)) : (⟨S8x4094, .i1⟩ : BufTy).Contents (Elt F) :=
  cmpi .slt (broadcastInDim S8x4094 ![0, 1] bcast_S1x4094_S8x4094_0_1 (broadcastInDim S1x4094 ![1] bcast_S4094_S1x4094_1 (iotaInDim S4094 32 0)))
    (broadcastInDim S8x4094 ![0, 1] bcast_S8x1_S8x4094_0_1 (broadcastInDim S8x1 ![0] bcast_S8_S8x1_0
      (subi (Host.reduce IntOp.addi a1 (constantI S_ 32 0#32) reducesTo_S8x4096_S8_d1 h_S_) (broadcastInDim S8 ![] bcast_S_S8 (constantI S_ 32 2#32)))))

/-- The mask column: the comparison converted to a float, with a unit axis added. -/
theorem mcol_eq (c : Dev nD) :
    mcol m c = broadcastInDim S8x4094x1 ![0, 1] bcast_S8x4094_S8x4094x1_0_1 (uitofp .f32 (validBits (m ((c.tc : Thread nD τ).loc main_arg1)))) := by
  show V m c main_v10 = _
  dsimp only [V, hostOps0]
  after_results
  rfl

/-- The transposed projection: the projection argument narrowed and its axes swapped. -/
theorem wT_eq (c : Dev nD) :
    wT m c = transpose S1024x128 [1, 0] (truncf .bf16 (m ((c.tc : Thread nD τ).loc main_arg2)) bitsLt_bf16_f32) transposes_S128x1024_S1024x128_1_0 := by
  show V m c main_v12 = _
  dsimp only [V, hostOps0]
  after_results

end Cert.KernelIdeal.Body

end
-- ==== Proof.KernelIdealPayload.lean ====
/-
  The body's arithmetic read at one entry, at the exact (extended-real) instance, where a change of float format is the
  identity and the matrix unit's product into a zero accumulator is the plain sum over the contracted axis:
  the context entry is the loaded row entry times the row's mask; the tile's partial product is the sum over the
  tile's 256 columns of context entry times projection entry; the three stores into the logits block leave the partial
  product, the block read back plus the partial product, and the block read back plus the bias entry.
-/
import proofs.«404583_j67568425500679_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx

/-- A column `[a, 1]` broadcast along the lanes to `[a, b]` reads, at `(p, c)`, the column's entry at `(p, 0)`. -/
theorem payload_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The context entry: the loaded row entry times the row's mask. -/
theorem pay1_apply (v0 : Vec Ideal S1x4094x256 .f32) (v2 : Vec Ideal S1x4094x1 .f32) (s : Fin 4094) (k : Fin 256) :
    (k0_pay1 (F := Ideal) v0 v2 (ix2 s k) : EReal)
      = (v0 (ix3 (0 : Fin 1) s k) : EReal) * (v2 (ix3 (0 : Fin 1) s (0 : Fin 1)) : EReal) := by
  unfold Gen.k0_pay1
  refine (mulf_apply _ _ _).trans ?_
  rw [shapeCast_1ab_ab_apply, payload_broadcastTo_a1_ab_apply, shapeCast_1ab_ab_apply]

theorem pay2_apply (v0 : Vec Ideal S1x4094x256 .f32) (v2 : Vec Ideal S1x4094x1 .f32) (s : Fin 4094) (k : Fin 256) :
    (k0_pay2 (F := Ideal) v0 v2 (ix3 (0 : Fin 1) s k) : EReal)
      = (v0 (ix3 (0 : Fin 1) s k) : EReal) * (v2 (ix3 (0 : Fin 1) s (0 : Fin 1)) : EReal) := by
  unfold Gen.k0_pay2
  refine (shapeCast_ab_1ab_apply _ _ _ _ _).trans ?_
  exact pay1_apply v0 v2 s k

/-- The product's left operand index on its row axis is the output's row. -/
theorem lhs_pay3_0 (i : S4094x128.Idx) (q : dot_S4094x256_S256x128_S4094x128_1_0_0_1_n_n.contr.Idx) :
    (dot_S4094x256_S256x128_S4094x128_1_0_0_1_n_n.lhsIdx i q 0).val = (i 0).val := by
  unfold DotDims.lhsIdx
  rw [dif_neg (show ¬(0 : Fin S4094x256.rank) ∈ dot_S4094x256_S256x128_S4094x128_1_0_0_1_n_n.lhsBatch by decide), dif_pos (show (0 : Fin S4094x256.rank) ∈ dot_S4094x256_S256x128_S4094x128_1_0_0_1_n_n.lhsNonContracting by decide)]
  rfl
/-- The product's left operand index on its column axis is the contraction coordinate. -/
theorem lhs_pay3_1 (i : S4094x128.Idx) (q : dot_S4094x256_S256x128_S4094x128_1_0_0_1_n_n.contr.Idx) :
    (dot_S4094x256_S256x128_S4094x128_1_0_0_1_n_n.lhsIdx i q 1).val = (q ⟨0, by decide⟩).val :=
  dot_S4094x256_S256x128_S4094x128_1_0_0_1_n_n.lhsIdx_val_of_single rfl i q
/-- The product's right operand index on its row axis is the contraction coordinate. -/
theorem rhs_pay3_0 (i : S4094x128.Idx) (q : dot_S4094x256_S256x128_S4094x128_1_0_0_1_n_n.contr.Idx) :
    (dot_S4094x256_S256x128_S4094x128_1_0_0_1_n_n.rhsIdx i q 0).val = (q ⟨0, by decide⟩).val :=
  dot_S4094x256_S256x128_S4094x128_1_0_0_1_n_n.rhsIdx_val_of_single rfl i q
/-- The product's right operand index on its column axis is the output's column. -/
theorem rhs_pay3_1 (i : S4094x128.Idx) (q : dot_S4094x256_S256x128_S4094x128_1_0_0_1_n_n.contr.Idx) :
    (dot_S4094x256_S256x128_S4094x128_1_0_0_1_n_n.rhsIdx i q 1).val = (i 1).val := by
  unfold DotDims.rhsIdx
  rw [dif_neg (show ¬(1 : Fin S256x128.rank) ∈ dot_S4094x256_S256x128_S4094x128_1_0_0_1_n_n.rhsBatch by decide), dif_pos (show (1 : Fin S256x128.rank) ∈ dot_S4094x256_S256x128_S4094x128_1_0_0_1_n_n.rhsNonContracting by decide)]
  rfl

theorem pay3_apply (v0 : Vec Ideal S1x4094x256 .f32) (v2 : Vec Ideal S1x4094x1 .f32) (v13 : Vec Ideal S256x128 .bf16) (s : Fin 4094) (l : Fin 128) :
    (k0_pay3 (F := Ideal) v0 v2 v13 (ix2 s l) : EReal)
      = ∑ k : Fin 256, ((v0 (ix3 (0 : Fin 1) s k) : EReal) * (v2 (ix3 (0 : Fin 1) s (0 : Fin 1)) : EReal)) * (v13 (ix2 k l) : EReal) := by
  unfold Gen.k0_pay3
  refine (Ideal.matmul_constant_zero_apply dot_S4094x256_S256x128_S4094x128_1_0_0_1_n_n none _ _ _).trans ?_
  rw [← Equiv.sum_comp (contrEquiv1 dot_S4094x256_S256x128_S4094x128_1_0_0_1_n_n 256 rfl rfl).symm]
  refine Finset.sum_congr rfl fun k _ => ?_
  have hk := contrEquiv1_symm_val dot_S4094x256_S256x128_S4094x128_1_0_0_1_n_n 256 rfl rfl k
  have el : dot_S4094x256_S256x128_S4094x128_1_0_0_1_n_n.lhsIdx (ix2 s l) ((contrEquiv1 dot_S4094x256_S256x128_S4094x128_1_0_0_1_n_n 256 rfl rfl).symm k) = ix2 s k := funext fun a => Fin.ext (by
    match a with
    | ⟨0, _⟩ => exact lhs_pay3_0 _ _
    | ⟨1, _⟩ => exact (lhs_pay3_1 _ _).trans hk)
  have er : dot_S4094x256_S256x128_S4094x128_1_0_0_1_n_n.rhsIdx (ix2 s l) ((contrEquiv1 dot_S4094x256_S256x128_S4094x128_1_0_0_1_n_n 256 rfl rfl).symm k) = ix2 k l := funext fun a => Fin.ext (by
    match a with
    | ⟨0, _⟩ => exact (rhs_pay3_0 _ _).trans hk
    | ⟨1, _⟩ => exact rhs_pay3_1 _ _)
  rw [el, er, shapeCast_self]
  exact congrArg (· * (v13 (ix2 k l) : EReal)) ((truncf_apply (ψ := .bf16) (k0_pay1 (F := Ideal) v0 v2) bitsLt_bf16_f32 (ix2 s k)).trans (pay1_apply v0 v2 s k))

theorem pay4_apply (v0 : Vec Ideal S1x4094x256 .f32) (v2 : Vec Ideal S1x4094x1 .f32) (v13 : Vec Ideal S256x128 .bf16) (s : Fin 4094) (l : Fin 128) :
    (k0_pay4 (F := Ideal) v0 v2 v13 (ix3 (0 : Fin 1) s l) : EReal) = (k0_pay3 (F := Ideal) v0 v2 v13 (ix2 s l) : EReal) := by
  unfold Gen.k0_pay4
  exact shapeCast_ab_1ab_apply _ _ _ _ _

theorem pay5_apply (v0 : Vec Ideal S1x4094x256 .f32) (v2 : Vec Ideal S1x4094x1 .f32) (v13 : Vec Ideal S256x128 .bf16) (v25 : Vec Ideal S1x4094x128 .f32)
    (s : Fin 4094) (l : Fin 128) :
    (k0_pay5 (F := Ideal) v0 v2 v13 v25 (ix3 (0 : Fin 1) s l) : EReal)
      = (v25 (ix3 (0 : Fin 1) s l) : EReal) + (k0_pay3 (F := Ideal) v0 v2 v13 (ix2 s l) : EReal) := by
  unfold Gen.k0_pay5
  refine (shapeCast_ab_1ab_apply _ _ _ _ _).trans ?_
  refine (addf_apply _ _ _).trans ?_
  rw [shapeCast_1ab_ab_apply]

theorem pay6_apply (v25 : Vec Ideal S1x4094x128 .f32) (v27 : Vec Ideal S128 .f32) (s : Fin 4094) (l : Fin 128) :
    (k0_pay6 (F := Ideal) v25 v27 (ix3 (0 : Fin 1) s l) : EReal) = (v25 (ix3 (0 : Fin 1) s l) : EReal) + (v27 (ix1 l) : EReal) := by
  unfold Gen.k0_pay6
  refine (shapeCast_ab_1ab_apply _ _ _ _ _).trans ?_
  refine (addf_apply _ _ _).trans ?_
  rw [shapeCast_1ab_ab_apply, broadcastTo_1b_ab_apply, shapeCast_a_1a_apply]

end Cert.KernelIdeal.Body

end
-- ==== Proof.KernelIdealSum.lean ====
/-
  The two output buffers after the body at a grid point, entry by entry, as the specification's numbers — at the exact
  (extended-real) instance. With `b = t / 4` the point's batch and `j = t mod 4` its tile:
  the context buffer holds context[b, s, 256·j + k]; the logits buffer holds, at entry (s, l), the partial products of
  tiles 0 … j added left to right (and the bias on top once j = 3). The second is by induction over the points: the first
  tile of a batch overwrites, a later tile adds its partial product to what the tile before left, and the tile before
  belongs to the same batch.
-/
import proofs.«404583_j67568425500679_3_alg».proof.Proof.KernelIdealBlocks
import proofs.«404583_j67568425500679_3_alg».proof.Proof.KernelIdealPayload

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ)

/-! ## The specification's inputs, read off the arrays as the region finds them -/

/-- The float mask: the mask column without its unit axis. -/
def mfK (c : Dev nD) : Cert.Spec.SM.Idx → EReal :=
  fun j => mcol m c (ix3 (⟨(j 0).val, (j 0).isLt⟩ : Fin 8) (⟨(j 1).val, (j 1).isLt⟩ : Fin 4094) (0 : Fin 1))

/-- The projection: the transposed projection read with its axes swapped back. -/
def wK (c : Dev nD) : Cert.Spec.SW.Idx → EReal :=
  fun j => wT m c (ix2 (⟨(j 1).val, (j 1).isLt⟩ : Fin 1024) (⟨(j 0).val, (j 0).isLt⟩ : Fin 128))

/-! ## One tile's partial product -/

/-- The body's matrix product at point `t`, entry (s, l): tile `t mod 4`'s partial product of the specification. -/
theorem partial_eq (c : Dev nD) (t : Fin cfg0.N) (s : Fin 4094) (l : Fin 128) (j : Fin 4) (hj : j.val = t.val % 4) :
    (k0_pay3 (F := Ideal) (rows (xblk m c t)) (mblk m c t) (wtile (grid0.coords t) (wblk m c t)) (ix2 s l) : EReal)
      = Cert.Spec.partialE (hid m c) (mfK m c) (wK m c) (batchOf t) s l j := by
  obtain rfl : j = tileOf t := Fin.ext hj
  refine (pay3_apply (rows (xblk m c t)) (mblk m c t) (wtile (grid0.coords t) (wblk m c t)) s l).trans ?_
  unfold Cert.Spec.partialE Cert.Spec.ctxE
  refine Finset.sum_congr rfl fun k _ => ?_
  rw [rows_apply, xblk_apply, mblk_apply, wtile_apply, wblk_apply]
  rfl

/-! ## The context buffer -/

/-- The body's context payload at point `t`, entry (s, k): the specification's context entry of the point's batch, row
    `s`, column `k` of the point's tile. -/
theorem ctx_pay_eq (c : Dev nD) (t : Fin cfg0.N) (s : Fin 4094) (k : Fin 256) :
    (k0_pay2 (F := Ideal) (rows (xblk m c t)) (mblk m c t) (ix3 (0 : Fin 1) s k) : EReal)
      = Cert.Spec.ctxE (hid m c) (mfK m c) (batchOf t) s (Cert.Spec.tile (tileOf t) k) := by
  refine (pay2_apply (rows (xblk m c t)) (mblk m c t) s k).trans ?_
  unfold Cert.Spec.ctxE
  rw [rows_apply, xblk_apply, mblk_apply]
  rfl

/-- What the context buffer holds after the body at point `t`. -/
theorem ctxAt_eq (c : Dev nD) (t : Fin cfg0.N) (s : Fin 4094) (k : Fin 256) :
    (ctxAt m c t (ix3 (0 : Fin 1) s k) : EReal)
      = Cert.Spec.ctxE (hid m c) (mfK m c) (batchOf t) s (Cert.Spec.tile (tileOf t) k) := by
  by_cases h0 : t.val % 4 = 0
  · rw [ctxAt_first m c t h0, ctxFirst_eq]
    exact ctx_pay_eq m c t s k
  · by_cases h3 : t.val % 4 = 3
    · rw [ctxAt_last m c t h3, ctxLast_eq]
      exact ctx_pay_eq m c t s k
    · rw [ctxAt_middle m c t h0 h3, ctxMiddle_eq]
      exact ctx_pay_eq m c t s k

/-! ## The logits buffer -/

/-- The partial products of tiles 0 … j of one entry, added left to right; from tile 3 on, the bias on top. -/
def accE (x : Cert.Spec.SX.Idx → EReal) (mf : Cert.Spec.SM.Idx → EReal) (W : Cert.Spec.SW.Idx → EReal) (bias : Cert.Spec.SB.Idx → EReal)
    (b : Fin 8) (s : Fin 4094) (l : Fin 128) : ℕ → EReal
  | 0 => Cert.Spec.partialE x mf W b s l 0
  | 1 => Cert.Spec.partialE x mf W b s l 0 + Cert.Spec.partialE x mf W b s l 1
  | 2 => (Cert.Spec.partialE x mf W b s l 0 + Cert.Spec.partialE x mf W b s l 1) + Cert.Spec.partialE x mf W b s l 2
  | _ + 3 => (((Cert.Spec.partialE x mf W b s l 0 + Cert.Spec.partialE x mf W b s l 1) + Cert.Spec.partialE x mf W b s l 2)
      + Cert.Spec.partialE x mf W b s l 3) + bias (ix1 l)

/-- What the logits buffer holds after the body at position `n`: the running sum of the batch's tiles up to `n mod 4`. -/
theorem logitsAt_eq (c : Dev nD) : ∀ (n : ℕ) (hn : n < cfg0.N) (s : Fin 4094) (l : Fin 128),
    (logitsAt m c n hn (ix3 (0 : Fin 1) s l) : EReal)
      = accE (hid m c) (mfK m c) (wK m c) (brow m c) (batchOf ⟨n, hn⟩) s l (n % 4)
  | 0, hn, s, l => by
    rw [show logitsAt m c 0 hn = logitsAt m c (⟨0, hn⟩ : Fin cfg0.N).val (⟨0, hn⟩ : Fin cfg0.N).isLt from rfl,
      logitsAt_first m c ⟨0, hn⟩ (Nat.zero_mod _), logitsFirst_eq]
    refine (pay4_apply _ _ _ s l).trans ?_
    exact partial_eq m c ⟨0, hn⟩ s l 0 rfl
  | n + 1, hn, s, l => by
    have ih := logitsAt_eq c n (Nat.lt_of_succ_lt hn) s l
    have hN : n + 1 < 32 := lt_of_lt_of_eq hn (show cfg0.N = 32 from N_0)
    rw [show logitsAt m c (n + 1) hn = logitsAt m c (⟨n + 1, hn⟩ : Fin cfg0.N).val (⟨n + 1, hn⟩ : Fin cfg0.N).isLt from rfl]
    by_cases h0 : (n + 1) % 4 = 0
    · rw [logitsAt_first m c ⟨n + 1, hn⟩ h0, logitsFirst_eq, h0]
      refine (pay4_apply _ _ _ s l).trans ?_
      exact partial_eq m c ⟨n + 1, hn⟩ s l 0 h0.symm
    · have eb : batchOf ⟨n, Nat.lt_of_succ_lt hn⟩ = batchOf ⟨n + 1, hn⟩ := Fin.ext (by show n / 4 = (n + 1) / 4; omega)
      have ih' : (logitsAt m c ((⟨n + 1, hn⟩ : Fin cfg0.N).val - 1) (Nat.lt_of_le_of_lt (Nat.sub_le _ _) (⟨n + 1, hn⟩ : Fin cfg0.N).isLt) (ix3 (0 : Fin 1) s l) : EReal)
          = accE (hid m c) (mfK m c) (wK m c) (brow m c) (batchOf ⟨n + 1, hn⟩) s l (n % 4) := eb ▸ ih
      by_cases h3 : (n + 1) % 4 = 3
      · rw [logitsAt_last m c ⟨n + 1, hn⟩ h3, logitsLast_eq, h3]
        refine (pay6_apply _ _ s l).trans ?_
        refine congrArg₂ (· + ·) ?_ (bblk_apply m c ⟨n + 1, hn⟩ l)
        refine (pay5_apply _ _ _ _ s l).trans ?_
        rw [ih', partial_eq m c ⟨n + 1, hn⟩ s l 3 h3.symm, show n % 4 = 2 by omega]
        rfl
      · rw [logitsAt_middle m c ⟨n + 1, hn⟩ h0 h3, logitsMiddle_eq]
        refine (pay5_apply _ _ _ _ s l).trans ?_
        rw [ih']
        have hm : (n + 1) % 4 = 1 ∨ (n + 1) % 4 = 2 := by omega
        rcases hm with hm | hm
        · rw [partial_eq m c ⟨n + 1, hn⟩ s l 1 hm.symm, hm, show n % 4 = 0 by omega]
          rfl
        · rw [partial_eq m c ⟨n + 1, hn⟩ s l 2 hm.symm, hm, show n % 4 = 1 by omega]
          rfl

/-- After a batch's last tile the logits buffer holds the specification's logits entries of that batch. -/
theorem logitsAt_last_eq (c : Dev nD) (t : Fin cfg0.N) (h3 : t.val % 4 = 3) (s : Fin 4094) (l : Fin 128) :
    (logitsAt m c t.val t.isLt (ix3 (0 : Fin 1) s l) : EReal)
      = Cert.Spec.logitE (hid m c) (mfK m c) (wK m c) (brow m c) (batchOf t) s l := by
  rw [logitsAt_eq m c t.val t.isLt s l, h3, Cert.Spec.logitE_tiles]
  rfl

/-! ## The same at any index of a block, and the specification's entries at equal coordinates -/

theorem ctxE_congr (x : Cert.Spec.SX.Idx → EReal) (mf : Cert.Spec.SM.Idx → EReal) {b b' : Fin 8} {s s' : Fin 4094} {h h' : Fin 1024}
    (eb : b.val = b'.val) (es : s.val = s'.val) (eh : h.val = h'.val) :
    Cert.Spec.ctxE x mf b s h = Cert.Spec.ctxE x mf b' s' h' := by
  obtain rfl := Fin.ext eb; obtain rfl := Fin.ext es; obtain rfl := Fin.ext eh; rfl

theorem logitE_congr (x : Cert.Spec.SX.Idx → EReal) (mf : Cert.Spec.SM.Idx → EReal) (W : Cert.Spec.SW.Idx → EReal) (bias : Cert.Spec.SB.Idx → EReal)
    {b b' : Fin 8} {s s' : Fin 4094} {l l' : Fin 128} (eb : b.val = b'.val) (es : s.val = s'.val) (el : l.val = l'.val) :
    Cert.Spec.logitE x mf W bias b s l = Cert.Spec.logitE x mf W bias b' s' l' := by
  obtain rfl := Fin.ext eb; obtain rfl := Fin.ext es; obtain rfl := Fin.ext el; rfl

/-- The context buffer after point `t` at any index of the block. -/
theorem ctxAt_idx (c : Dev nD) (t : Fin cfg0.N) (y : S1x4094x256.Idx) :
    (ctxAt m c t y : EReal)
      = Cert.Spec.ctxE (hid m c) (mfK m c) (batchOf t) ⟨(y 1).val, (y 1).isLt⟩ (Cert.Spec.tile (tileOf t) ⟨(y 2).val, (y 2).isLt⟩) := by
  have hy : y = ix3 (0 : Fin 1) (⟨(y 1).val, (y 1).isLt⟩ : Fin 4094) (⟨(y 2).val, (y 2).isLt⟩ : Fin 256) := by
    funext a
    match a with
    | ⟨0, _⟩ => exact Subsingleton.elim (α := Fin 1) _ _
    | ⟨1, _⟩ => rfl
    | ⟨2, _⟩ => rfl
  exact (congrArg (ctxAt m c t) hy).trans (ctxAt_eq m c t _ _)

/-- The logits buffer after a batch's last tile at any index of the block. -/
theorem logitsAt_idx (c : Dev nD) (t : Fin cfg0.N) (h3 : t.val % 4 = 3) (y : S1x4094x128.Idx) :
    (logitsAt m c t.val t.isLt y : EReal)
      = Cert.Spec.logitE (hid m c) (mfK m c) (wK m c) (brow m c) (batchOf t) ⟨(y 1).val, (y 1).isLt⟩ ⟨(y 2).val, (y 2).isLt⟩ := by
  have hy : y = ix3 (0 : Fin 1) (⟨(y 1).val, (y 1).isLt⟩ : Fin 4094) (⟨(y 2).val, (y 2).isLt⟩ : Fin 128) := by
    funext a
    match a with
    | ⟨0, _⟩ => exact Subsingleton.elim (α := Fin 1) _ _
    | ⟨1, _⟩ => rfl
    | ⟨2, _⟩ => rfl
  exact (congrArg (logitsAt m c t.val t.isLt) hy).trans (logitsAt_last_eq m c t h3 _ _)

end Cert.KernelIdeal.Body

end
-- ==== Proof.KernelIdealValue.lean ====
/-
  The kernel program's two results as the specification's functions of the argument arrays — at the exact
  (extended-real) instance. Every point writes its context block back, and the 32 blocks (8 batches × 4 tiles of 256
  columns) tile the context array; a logits block is written back once, after its batch's last tile, and the 8 blocks
  tile the logits array. What is written back is, entry by entry, the specification's entry at the block's place in
  the array. Last, the specification's inputs as the region finds them are the program's arguments: the hidden state and
  the bias untouched, the projection narrowed (the identity here) and transposed, read with its axes swapped back, and
  the float mask the conversion of the comparison "position < length − 2".
-/
import proofs.«404583_j67568425500679_3_alg».proof.Proof.KernelIdealSum

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ) (ρ : Dev nD → PrngReg)

/-! ## What a point writes back -/

/-- Point `t` writes back block `t` of the specification's context. -/
theorem flushedC_eq (c : Dev nD) (t : Fin cfg0.N) :
    (dats m 0 c).flushed 5 t = ((cfg0.win 5).blk t).view.read (Elt Ideal) (Cert.Spec.context (hid m c) (mfK m c)) := by
  have g := grid_facts t
  show (cfg0.win 5).cut (grid0.coords t) ((dats m 0 c).after 5 t) = _
  rw [after5]
  funext y
  show ctxAt m c t y = Cert.Spec.context (hid m c) (mfK m c) (((cfg0.win 5).blk t).view.emb y)
  refine (ctxAt_idx m c t y).trans ?_
  have hy0 : (y 0).val < 1 := (y 0).isLt
  exact ctxE_congr _ _
    (by show t.val / 4 = win0_5.index t (0 : Fin 3) * 1 + 1 * (y 0).val; omega)
    (by show (y 1).val = win0_5.index t (1 : Fin 3) * 4094 + 1 * (y 1).val; omega)
    (by show 256 * (t.val % 4) + (y 2).val = win0_5.index t (2 : Fin 3) * 256 + 1 * (y 2).val; omega)

/-- A point that writes the logits block back — a batch's last tile — writes block `t` of the specification's logits. -/
theorem flushedL_eq (c : Dev nD) (t : Fin cfg0.N) (hf : (cfg0.win 4).flush t = true) :
    (dats m 0 c).flushed 4 t
      = ((cfg0.win 4).blk t).view.read (Elt Ideal) (Cert.Spec.logits (hid m c) (mfK m c) (wK m c) (brow m c)) := by
  have g := grid_facts t
  have h3 : t.val % 4 = 3 := (flush0_4 t).mp hf
  show (cfg0.win 4).cut (grid0.coords t) ((dats m 0 c).after 4 t) = _
  rw [after4]
  funext y
  show logitsAt m c t.val t.isLt y = Cert.Spec.logits (hid m c) (mfK m c) (wK m c) (brow m c) (((cfg0.win 4).blk t).view.emb y)
  refine (logitsAt_idx m c t h3 y).trans ?_
  have hy0 : (y 0).val < 1 := (y 0).isLt
  exact logitE_congr _ _ _ _
    (by show t.val / 4 = win0_4.index t (0 : Fin 3) * 1 + 1 * (y 0).val; omega)
    (by show (y 1).val = win0_4.index t (1 : Fin 3) * 4094 + 1 * (y 1).val; omega)
    (by show (y 2).val = win0_4.index t (2 : Fin 3) * 128 + 1 * (y 2).val; omega)

/-! ## The blocks tile the arrays -/

theorem mem_blkC (t : Fin cfg0.N) (i : S8x4094x1024.Idx) :
    i ∈ ((cfg0.win 5).blk t).view.set ↔ ∀ a : Fin 3, win0_5.index t a * S1x4094x256.size a ≤ (i a).val ∧ (i a).val < win0_5.index t a * S1x4094x256.size a + S1x4094x256.size a := by
  show i ∈ ((View.whole main_v13_1).slice (win0_5.rect t)).set ↔ _
  rw [View.set_slice_whole, Rect.mem_set_unit]
  exact Iff.rfl

theorem mem_blkL (t : Fin cfg0.N) (i : S8x4094x128.Idx) :
    i ∈ ((cfg0.win 4).blk t).view.set ↔ ∀ a : Fin 3, win0_4.index t a * S1x4094x128.size a ≤ (i a).val ∧ (i a).val < win0_4.index t a * S1x4094x128.size a + S1x4094x128.size a := by
  show i ∈ ((View.whole main_v13_0).slice (win0_4.rect t)).set ↔ _
  rw [View.set_slice_whole, Rect.mem_set_unit]
  exact Iff.rfl

/-- Entry (b, s, h) of the context array lies in the block of point `4·b + h / 256`. -/
theorem coverC (i : S8x4094x1024.Idx) : ∃ t : Fin cfg0.N, (cfg0.win 5).flush t = true ∧ i ∈ ((cfg0.win 5).blk t).view.set := by
  have h0 : (i 0).val < 8 := (i 0).isLt
  have h1 : (i 1).val < 4094 := (i 1).isLt
  have h2 : (i 2).val < 1024 := (i 2).isLt
  have hN : cfg0.N = 32 := N_0
  refine ⟨⟨4 * (i 0).val + (i 2).val / 256, by rw [hN]; omega⟩, flush0_5 _, ?_⟩
  have g := grid_facts ⟨4 * (i 0).val + (i 2).val / 256, by rw [hN]; omega⟩
  dsimp only at g
  rw [mem_blkC]
  intro a
  match a with
  | ⟨0, _⟩ =>
    show win0_5.index _ (0 : Fin 3) * 1 ≤ (i 0).val ∧ (i 0).val < win0_5.index _ (0 : Fin 3) * 1 + 1
    omega
  | ⟨1, _⟩ =>
    show win0_5.index _ (1 : Fin 3) * 4094 ≤ (i 1).val ∧ (i 1).val < win0_5.index _ (1 : Fin 3) * 4094 + 4094
    omega
  | ⟨2, _⟩ =>
    show win0_5.index _ (2 : Fin 3) * 256 ≤ (i 2).val ∧ (i 2).val < win0_5.index _ (2 : Fin 3) * 256 + 256
    omega

/-- Entry (b, s, l) of the logits array lies in the block written back after batch `b`'s last tile, point `4·b + 3`. -/
theorem coverL (i : S8x4094x128.Idx) : ∃ t : Fin cfg0.N, (cfg0.win 4).flush t = true ∧ i ∈ ((cfg0.win 4).blk t).view.set := by
  have h0 : (i 0).val < 8 := (i 0).isLt
  have h1 : (i 1).val < 4094 := (i 1).isLt
  have h2 : (i 2).val < 128 := (i 2).isLt
  have hN : cfg0.N = 32 := N_0
  refine ⟨⟨4 * (i 0).val + 3, by rw [hN]; omega⟩, (flush0_4 _).mpr (by show (4 * (i 0).val + 3) % 4 = 3; omega), ?_⟩
  have g := grid_facts ⟨4 * (i 0).val + 3, by rw [hN]; omega⟩
  dsimp only at g
  rw [mem_blkL]
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 4094 ≤ (i 1).val ∧ (i 1).val < win0_4.index _ (1 : Fin 3) * 4094 + 4094
    omega
  | ⟨2, _⟩ =>
    show win0_4.index _ (2 : Fin 3) * 128 ≤ (i 2).val ∧ (i 2).val < win0_4.index _ (2 : Fin 3) * 128 + 128
    omega

/-! ## The arrays after the run -/

theorem finalC (c : Dev nD) : (dats m 0 c).arrAt 5 cfg0.N = Cert.Spec.context (hid m c) (mfK m c) :=
  (dats m 0 c).arrAt_eq_of_cover 5 (Cert.Spec.context (hid m c) (mfK m c)) (fun t _ => flushedC_eq m c t) coverC

theorem finalL (c : Dev nD) : (dats m 0 c).arrAt 4 cfg0.N = Cert.Spec.logits (hid m c) (mfK m c) (wK m c) (brow m c) :=
  (dats m 0 c).arrAt_eq_of_cover 4 (Cert.Spec.logits (hid m c) (mfK m c) (wK m c) (brow m c)) (fun t hf => flushedL_eq m c t hf) coverL

/-! ## The specification's inputs are the arguments -/

/-- The float validity mask of a mask argument: 1 where the trimmed position lies inside the sequence, 0 elsewhere. -/
def maskK (a1 : (⟨S8x4096, .i32⟩ : BufTy).Contents (Elt Ideal)) : Cert.Spec.SM.Idx → EReal :=
  fun j => FloatOps.uitofp (F := Ideal) .f32 (validBits (F := Ideal) a1 j)

theorem hid_eq (c : Dev nD) : hid m c = m ((c.tc : Thread nD τ).loc main_arg0) := V_main_arg0 m c
theorem brow_eq (c : Dev nD) : brow m c = m ((c.tc : Thread nD τ).loc main_arg3) := V_main_arg3 m c

theorem mfK_eq (c : Dev nD) : mfK m c = maskK (m ((c.tc : Thread nD τ).loc main_arg1)) := by
  funext j
  unfold mfK maskK
  rw [mcol_eq]
  exact broadcastInDim_apply _ bcast_S8x4094_S8x4094x1_0_1 _ _ j (fun a => match a with
    | ⟨0, _⟩ => by show (j 0).val = if (8 : Nat) = 1 then 0 else (j 0).val; rw [if_neg (by decide)]
    | ⟨1, _⟩ => by show (j 1).val = if (4094 : Nat) = 1 then 0 else (j 1).val; rw [if_neg (by decide)])

theorem wK_eq (c : Dev nD) : wK m c = m ((c.tc : Thread nD τ).loc main_arg2) := by
  funext j
  unfold wK
  rw [wT_eq]
  refine (transpose_ix2_apply _ transposes_S128x1024_S1024x128_1_0 _ _).trans ?_
  show m ((c.tc : Thread nD τ).loc main_arg2) (ix2 (⟨(j 0).val, (j 0).isLt⟩ : Fin 128) (⟨(j 1).val, (j 1).isLt⟩ : Fin 1024)) = m ((c.tc : Thread nD τ).loc main_arg2) j
  exact congrArg _ (eq_ix2 j).symm

/-! ## The run, read -/

/-- Every weakly fair execution of the kernel program terminates with its two results at the specification's logits and
    context of the arguments, and the arguments unchanged. -/
theorem run : θ_run defs (onTc (τ := τ) (main (F := Ideal))) ⟨m, fun _ => 0, ρ⟩ fun r => ∀ c : Dev nD,
      r.2.mem ((c.tc : Thread nD τ).loc main_v13_0)
        = Cert.Spec.logits (m ((c.tc : Thread nD τ).loc main_arg0)) (maskK (m ((c.tc : Thread nD τ).loc main_arg1)))
            (m ((c.tc : Thread nD τ).loc main_arg2)) (m ((c.tc : Thread nD τ).loc main_arg3))
      ∧ r.2.mem ((c.tc : Thread nD τ).loc main_v13_1)
        = Cert.Spec.context (m ((c.tc : Thread nD τ).loc main_arg0)) (maskK (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).1 4).trans ((finalL m c).trans (by rw [hid_eq, mfK_eq, wK_eq, brow_eq])),
       ((h c).1 5).trans ((finalC m c).trans (by rw [hid_eq, mfK_eq])),
       ((h c).1 0).trans (((dats m 0 c).arrAt_in 0 rfl _).trans ((A_eq m c 0).trans (V_main_arg0 m c))),
       ((h c).2 main_arg1 (Pipeline.mem_restRefs_of main_arg1 (by decide) (by decide))).trans (V_main_arg1 m c),
       ((h c).2 main_arg2 (Pipeline.mem_restRefs_of main_arg2 (by decide) (by decide))).trans (V_main_arg2 m c),
       ((h c).1 3).trans (((dats m 0 c).arrAt_in 3 rfl _).trans ((A_eq m c 3).trans (V_main_arg3 m c)))⟩)
    (run_main m ρ)

end Cert.KernelIdeal.Body

end
-- ==== Proof.RefValue.lean ====
/-
  The reference program's two results, read index by index at the exact (extended-real) instance, are the specification's
  context and logits of the argument arrays, the float validity mask being the reference's own comparison
  "position < length − 2" converted to 0 / 1.
-/
import proofs.«404583_j67568425500679_3_alg».proof.Proof.Gen.ReferenceIdeal.Read
import proofs.«404583_j67568425500679_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-- The validity mask as a float: 1 where the trimmed position lies inside the sequence, 0 elsewhere. -/
def mask (a1 : (⟨S8x4096, .i32⟩ : BufTy).Contents (Elt Ideal)) : Cert.Spec.SM.Idx → EReal :=
  fun j => FloatOps.uitofp (F := Ideal) .f32 (val_main_v8 (F := Ideal) a1 j)

/-- The sliced row of the input at an index of the context: batch, row shifted by one, column. -/
theorem slice_idx (i : S8x4094x1024.Idx) :
    idx_main_v9 i = ix3 (⟨(i 0).val, (i 0).isLt⟩ : Fin 8) (Cert.Spec.shift ⟨(i 1).val, (i 1).isLt⟩) (⟨(i 2).val, (i 2).isLt⟩ : Fin 1024) :=
  funext fun a => Fin.ext (by
    match a with
    | ⟨0, _⟩ => rfl
    | ⟨1, _⟩ => exact Nat.add_comm 1 (i 1).val
    | ⟨2, _⟩ => rfl)

/-- The mask entry read for an index of the context: batch and row, the column dropped. -/
theorem mask_idx (i : S8x4094x1024.Idx) :
    idx_main_v10 (idx_main_v12 i) = ix2 (⟨(i 0).val, (i 0).isLt⟩ : Fin 8) (⟨(i 1).val, (i 1).isLt⟩ : Fin 4094) :=
  funext fun a => Fin.ext (by
    match a with
    | ⟨0, _⟩ => rfl
    | ⟨1, _⟩ => rfl)

/-- The reference's context result is the specification's. -/
theorem context_eq (a0 : (⟨S8x4096x1024, .f32⟩ : BufTy).Contents (Elt Ideal)) (a1 : (⟨S8x4096, .i32⟩ : BufTy).Contents (Elt Ideal)) :
    val_main_v13 (F := Ideal) a0 a1 = Cert.Spec.context a0 (mask a1) := by
  funext i
  rw [val_main_v13_apply, val_main_v9_apply, val_main_v12_apply, val_main_v11_apply, val_main_v10_apply, slice_idx, mask_idx]
  rfl

/-- The projection entry read for an index of the logits and a column: output channel, column. -/
theorem weight_idx (i : S8x4094x128.Idx) (k : Fin 1024) :
    ridx_main_v17 i k = ix2 (⟨(i 2).val, (i 2).isLt⟩ : Fin 128) k :=
  funext fun a => Fin.ext (by
    match a with
    | ⟨0, _⟩ => rfl
    | ⟨1, _⟩ => rfl)

/-- The bias entry read for an index of the logits: the output channel. -/
theorem bias_idx (i : S8x4094x128.Idx) :
    idx_main_v18 (idx_main_v19 i) = ix1 (⟨(i 2).val, (i 2).isLt⟩ : Fin 128) :=
  funext fun a => Fin.ext (by
    match a with
    | ⟨0, _⟩ => rfl)

/-- The specification's context at the row of an index of the logits and a column is the context entry at
    that batch, row and column. -/
theorem context_row (x : Cert.Spec.SX.Idx → EReal) (mf : Cert.Spec.SM.Idx → EReal) (i : S8x4094x128.Idx) (k : Fin 1024) :
    Cert.Spec.context x mf (lidx_main_v17 i k)
      = Cert.Spec.ctxE x mf (⟨(i 0).val, (i 0).isLt⟩ : Fin 8) (⟨(i 1).val, (i 1).isLt⟩ : Fin 4094) k := rfl

/-- The reference's logits result is the specification's. -/
theorem logits_eq (a0 : (⟨S8x4096x1024, .f32⟩ : BufTy).Contents (Elt Ideal)) (a1 : (⟨S8x4096, .i32⟩ : BufTy).Contents (Elt Ideal))
    (a2 : (⟨S128x1024, .f32⟩ : BufTy).Contents (Elt Ideal)) (a3 : (⟨S128, .f32⟩ : BufTy).Contents (Elt Ideal)) :
    val_main_v20 (F := Ideal) a0 a1 a2 a3 = Cert.Spec.logits a0 (mask a1) a2 a3 := by
  funext i
  rw [val_main_v20_apply, val_main_v17_apply, val_main_v19_apply, val_main_v18_apply, context_eq, bias_idx]
  have hsum : ∑ k : Fin 1024, Cert.Spec.context a0 (mask a1) (lidx_main_v17 i k) * a2 (ridx_main_v17 i k)
      = ∑ h : Fin 1024, Cert.Spec.ctxE a0 (mask a1) (⟨(i 0).val, (i 0).isLt⟩ : Fin 8) (⟨(i 1).val, (i 1).isLt⟩ : Fin 4094) h
          * a2 (ix2 (⟨(i 2).val, (i 2).isLt⟩ : Fin 128) h) :=
    Finset.sum_congr rfl fun k _ => by rw [context_row, weight_idx]
  rw [hsum]
  rfl

end Cert.ReferenceIdeal.RefValue

end
-- ==== Proof.lean ====
/-
  The kernel trims one token at each end of every sequence (row s of the result is row s + 1 of the hidden state), zeroes
  the rows at or past length − 2 by multiplying with a 0 / 1 mask, and projects every row onto 128 channels with a bias:

    context[b, s, h] = x[b, s + 1, h] · mask[b, s]        logits[b, s, l] = Σ_{h < 1024} context[b, s, h] · W[l, h] + bias[l]

  The reference does this with one contraction over the 1024 hidden columns. The kernel walks the hidden axis in four
  tiles of 256 columns per batch, keeps the logits block resident over the four tiles, overwrites it with the first
  tile's partial product, adds each later tile's to it, and adds the bias after the last. Over the extended reals a
  change of float format is the identity and addition is commutative and associative, so the four partial sums added
  left to right are the one sum over 1024 columns: both programs end with the same two arrays, entry by entry. The mask
  is the same integer comparison "position < length − 2" in both programs, converted to a float before or after a unit
  axis is added. No rewrite separates the kernel from its idealization, so that conjunct is trivial; the three frames are
  the runs themselves with the results dropped.
-/
import proofs.«404583_j67568425500679_3_alg».proof.Defs
import proofs.«404583_j67568425500679_3_alg».proof.Proof.Gen.Pre_finite_inputs
import proofs.«404583_j67568425500679_3_alg».proof.Proof.KernelFrame
import proofs.«404583_j67568425500679_3_alg».proof.Proof.KernelIdealValue
import proofs.«404583_j67568425500679_3_alg».proof.Proof.RefValue
import Idealize.ShloMosaic.Adequacy
import Idealize.ShloMosaic.Init

noncomputable section

namespace Cert.Proof

open Idealize.ShloMosaic Idealize.SL.Sem

/-- The word-level kernel runs to the end, faults nowhere, and leaves its arguments unchanged. -/
theorem frame_kernel : Cert.frame_Kernel := fun m ρ _ => Cert.Kernel.Body.frame m ρ

/-- So does the kernel read over the extended reals. -/
theorem frame_kernelIdeal : Cert.frame_KernelIdeal := fun m ρ _ => Cert.KernelIdeal.Body.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The two programs compute the validity mask by the same operations of the mask argument. -/
theorem mask_eq (a1 : (⟨Cert.KernelIdeal.S8x4096, .i32⟩ : BufTy).Contents (Elt Ideal)) :
    Cert.KernelIdeal.Body.maskK a1 = Cert.ReferenceIdeal.RefValue.mask a1 := rfl

/-- From memories agreeing on the arguments both programs end with the specification's logits and context of those
    arguments: the kernel by its run read block by block, the reference by its run read operation by operation. -/
theorem algebraic : Cert.algebraic_KernelIdeal_ReferenceIdeal := by
  intro m ρ m' ρ' _ hagree
  refine ⟨fun c => Cert.Spec.logits (m ((c.tc : Thread Cert.KernelIdeal.nD Cert.KernelIdeal.τ).loc Cert.KernelIdeal.main_arg0))
        (Cert.KernelIdeal.Body.maskK (m ((c.tc : Thread Cert.KernelIdeal.nD Cert.KernelIdeal.τ).loc Cert.KernelIdeal.main_arg1)))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Spec.context (m ((c.tc : Thread Cert.KernelIdeal.nD Cert.KernelIdeal.τ).loc Cert.KernelIdeal.main_arg0))
        (Cert.KernelIdeal.Body.maskK (m ((c.tc : Thread Cert.KernelIdeal.nD Cert.KernelIdeal.τ).loc Cert.KernelIdeal.main_arg1))),
      Cert.KernelIdeal.Body.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v20_eq, Cert.ReferenceIdeal.RefValue.logits_eq,
      (hagree c).1, (hagree c).2.1, (hagree c).2.2.1, (hagree c).2.2.2]
    rfl
  · rw [(h c).2.1, Cert.ReferenceIdeal.Read.val_main_v13_eq, Cert.ReferenceIdeal.RefValue.context_eq,
      (hagree c).1, (hagree c).2.1]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
